-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S128 .f32) (main_arg5 : FVec F S128x2 .f32) (main_arg6 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg5
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S50000x128 .f32) (main_arg1 : FVec F S128x256 .f32) (main_arg2 : FVec F S256 .f32) (main_arg3 : FVec F S256x128 .f32) (main_arg4 : FVec F S128 .f32) (main_arg5 : FVec F S128x2 .f32) (main_arg6 : FVec F S2 .f32) (main_arg7 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x256 : Shape := ⟨2, ![50000, 256]⟩
abbrev S2000x128 : Shape := ⟨2, ![2000, 128]⟩
abbrev S2000x256 : Shape := ⟨2, ![2000, 256]⟩
abbrev S650000x256 : Shape := ⟨2, ![650000, 256]⟩
abbrev S1x256 : Shape := ⟨2, ![1, 256]⟩
abbrev S650000x128 : Shape := ⟨2, ![650000, 128]⟩
abbrev S1x128 : Shape := ⟨2, ![1, 128]⟩
abbrev S50000x2 : Shape := ⟨2, ![50000, 2]⟩
abbrev S2000x2 : Shape := ⟨2, ![2000, 2]⟩
abbrev S650000x2 : Shape := ⟨2, ![650000, 2]⟩
abbrev S1x2 : Shape := ⟨2, ![1, 2]⟩
abbrev S2000 : Shape := ⟨1, ![2000]⟩
abbrev S2000x1 : Shape := ⟨2, ![2000, 1]⟩

abbrev nBuf : Space → Nat
  | .hbm => 105
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S128x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x2, .f32⟩
  | .hbm, ⟨6, _⟩ => ⟨S2, .f32⟩
  | .hbm, ⟨7, _⟩ => ⟨S2x600000, .i32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x256, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x256, .f32⟩
  | .hbm, ⟨58, _⟩ => ⟨S650000x1, .f32⟩
  | .hbm, ⟨59, _⟩ => ⟨S650000x256, .f32⟩
  | .hbm, ⟨60, _⟩ => ⟨S650000x256, .f32⟩
  | .hbm, ⟨61, _⟩ => ⟨S_, .f32⟩
  | .hbm, ⟨62, _⟩ => ⟨S50000x256, .f32⟩
  | .hbm, ⟨63, _⟩ => ⟨S650000x1, .i32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x128, .f32⟩
  | .hbm, ⟨68, _⟩ => ⟨S_, .i32⟩
  | .hbm, ⟨69, _⟩ => ⟨S650000, .i32⟩
  | .hbm, ⟨70, _⟩ => ⟨S650000, .i1⟩
  | .hbm, ⟨71, _⟩ => ⟨S_, .i32⟩
  | .hbm, ⟨72, _⟩ => ⟨S650000, .i32⟩
  | .hbm, ⟨73, _⟩ => ⟨S650000, .i32⟩
  | .hbm, ⟨74, _⟩ => ⟨S650000, .i32⟩
  | .hbm, ⟨75, _⟩ => ⟨S650000x1, .i32⟩
  | .hbm, ⟨76, _⟩ => ⟨S650000x128, .f32⟩
  | .hbm, ⟨77, _⟩ => ⟨S650000x1, .f32⟩
  | .hbm, ⟨78, _⟩ => ⟨S650000x128, .f32⟩
  | .hbm, ⟨79, _⟩ => ⟨S650000x128, .f32⟩
  | .hbm, ⟨80, _⟩ => ⟨S_, .f32⟩
  | .hbm, ⟨81, _⟩ => ⟨S50000x128, .f32⟩
  | .hbm, ⟨82, _⟩ => ⟨S650000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x2, .f32⟩
  | .hbm, ⟨87, _⟩ => ⟨S_, .i32⟩
  | .hbm, ⟨88, _⟩ => ⟨S650000, .i32⟩
  | .hbm, ⟨89, _⟩ => ⟨S650000, .i1⟩
  | .hbm, ⟨90, _⟩ => ⟨S_, .i32⟩
  | .hbm, ⟨91, _⟩ => ⟨S650000, .i32⟩
  | .hbm, ⟨92, _⟩ => ⟨S650000, .i32⟩
  | .hbm, ⟨93, _⟩ => ⟨S650000, .i32⟩
  | .hbm, ⟨94, _⟩ => ⟨S650000x1, .i32⟩
  | .hbm, ⟨95, _⟩ => ⟨S650000x2, .f32⟩
  | .hbm, ⟨96, _⟩ => ⟨S650000x1, .f32⟩
  | .hbm, ⟨97, _⟩ => ⟨S650000x2, .f32⟩
  | .hbm, ⟨98, _⟩ => ⟨S650000x2, .f32⟩
  | .hbm, ⟨99, _⟩ => ⟨S_, .f32⟩
  | .hbm, ⟨100, _⟩ => ⟨S50000x2, .f32⟩
  | .hbm, ⟨101, _⟩ => ⟨S650000x1, .i32⟩
  | .hbm, ⟨102, _⟩ => ⟨S50000x2, .f32⟩
  | .hbm, ⟨103, _⟩ => ⟨S1x2, .f32⟩
  | .hbm, ⟨104, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x2, .f32⟩
  | .local _ .vmem, ⟨23, _⟩ => ⟨S2000x2, .f32⟩
  | .local _ .vmem, ⟨24, _⟩ => ⟨S2000x2, .f32⟩
  | .local _ .vmem, ⟨25, _⟩ => ⟨S2000x2, .f32⟩
  | .local _ .vmem, ⟨26, _⟩ => ⟨S2000x2, .f32⟩
  | .local _ .vmem, ⟨27, _⟩ => ⟨S1x2, .f32⟩
  | .local _ .vmem, ⟨28, _⟩ => ⟨S2000x2, .f32⟩
  | .local _ .vmem, ⟨29, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  inb_S2000x2_S2000x2_0_0 : ∀ a, (![0, 0] : Fin 2 → Nat) a + S2000x2.size a ≤ S2000x2.size a
  h_S2000x2 : 0 < S2000x2.numel
  bcast_S650000x1_S650000x2_0_1 : S650000x1.BroadcastsInDim S650000x2 (![0, 1] : Fin 2 → Fin S650000x2.rank)
  bcast_S_S50000x2 : S_.BroadcastsInDim S50000x2 (![] : Fin 0 → Fin S50000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S2000x128_S128x256_S2000x256_1_0_0_1_n_n_wf : DotDims.WF S2000x128 S128x256 S2000x256 [1] [0] [0] [1] [] []
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  dot_S2000x256_S256x128_S2000x128_1_0_0_1_n_n_wf : DotDims.WF S2000x256 S256x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S2000x128_S128x2_S2000x2_1_0_0_1_n_n_wf : DotDims.WF S2000x128 S128x2 S2000x2 [1] [0] [0] [1] [] []
  gather_S50000x2_S650000x1_S650000x2_1_0_n_n_0_1_12_wf : GatherDims.WF S50000x2 S650000x1 S650000x2 [1] [0] [] [0] [] 1 ![1, 2]
  scatter_S50000x2_S650000x1_S650000x2_1_0_0_1_wf : ScatterDims.WF S50000x2 S650000x1 S650000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x2.size a ≤ S50000x2.size a
  hwx4_2 : ∀ i : grid4.Coords, EltTy.bits .f32 = 32 ∨ (Rect.block (s := S50000x2) S2000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x2.size a ≤ S50000x2.size a
  hwx5_0 : ∀ i : grid5.Coords, EltTy.bits .f32 = 32 ∨ (Rect.block (s := S50000x2) S2000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x2.size a ≤ S50000x2.size a
  hwx5_2 : ∀ i : grid5.Coords, EltTy.bits .f32 = 32 ∨ (Rect.block (s := S50000x2) S2000x2.size (cc5_transform_2 i) (hinb5_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S50000x2_S650000x1_S650000x2_1_0_n_n_0_1_12 : GatherDims S50000x2 S650000x1 S650000x2 where
  offsetDims := [1]
  collapsedSliceDims := [0]
  operandBatchingDims := []
  startIndicesBatchingDims := []
  startIndexMap := [0]
  indexVectorDim := 1
  sliceSizes := ![1, 2]
  wf := gather_S50000x2_S650000x1_S650000x2_1_0_n_n_0_1_12_wf
def scatter_S50000x2_S650000x1_S650000x2_1_0_0_1 : ScatterDims S50000x2 S650000x1 S650000x2 where
  updateWindowDims := [1]
  insertedWindowDims := [0]
  scatterDimsToOperandDims := [0]
  indexVectorDim := 1
  wf := scatter_S50000x2_S650000x1_S650000x2_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S2x600000 : Shape := ⟨2, ![2, 600000]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x256 : Shape := ⟨2, ![50000, 256]⟩
abbrev S650000x256 : Shape := ⟨2, ![650000, 256]⟩
abbrev S1x256 : Shape := ⟨2, ![1, 256]⟩
abbrev S650000x128 : Shape := ⟨2, ![650000, 128]⟩
abbrev S1x128 : Shape := ⟨2, ![1, 128]⟩
abbrev S50000x2 : Shape := ⟨2, ![50000, 2]⟩
abbrev S650000x2 : Shape := ⟨2, ![650000, 2]⟩
abbrev S1x2 : Shape := ⟨2, ![1, 2]⟩
abbrev S50000x1 : Shape := ⟨2, ![50000, 1]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S128x256, .f32⟩
  | 2 => ⟨S256, .f32⟩
  | 3 => ⟨S256x128, .f32⟩
  | 4 => ⟨S128, .f32⟩
  | 5 => ⟨S128x2, .f32⟩
  | 6 => ⟨S2, .f32⟩
  | 7 => ⟨S2x600000, .i32⟩
  | 8 => ⟨S50000, .i32⟩
  | 9 => ⟨S1x600000, .i32⟩
  | 10 => ⟨S600000, .i32⟩
  | 11 => ⟨S650000, .i32⟩
  | 12 => ⟨S1x600000, .i32⟩
  | 13 => ⟨S600000, .i32⟩
  | 14 => ⟨S650000, .i32⟩
  | 15 => ⟨S_, .f32⟩
  | 16 => ⟨S650000, .f32⟩
  | 17 => ⟨S_, .f32⟩
  | 18 => ⟨S50000, .f32⟩
  | 19 => ⟨S650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S650000, .f32⟩
  | 48 => ⟨S50000x256, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x256, .f32⟩
  | 58 => ⟨S650000x1, .f32⟩
  | 59 => ⟨S650000x256, .f32⟩
  | 60 => ⟨S650000x256, .f32⟩
  | 61 => ⟨S_, .f32⟩
  | 62 => ⟨S50000x256, .f32⟩
  | 63 => ⟨S650000x1, .i32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S50000x128, .f32⟩
  | 72 => ⟨S_, .i32⟩
  | 73 => ⟨S650000, .i32⟩
  | 74 => ⟨S650000, .i1⟩
  | 75 => ⟨S_, .i32⟩
  | 76 => ⟨S650000, .i32⟩
  | 77 => ⟨S650000, .i32⟩
  | 78 => ⟨S650000, .i32⟩
  | 79 => ⟨S650000x1, .i32⟩
  | 80 => ⟨S650000x128, .f32⟩
  | 81 => ⟨S650000x1, .f32⟩
  | 82 => ⟨S650000x128, .f32⟩
  | 83 => ⟨S650000x128, .f32⟩
  | 84 => ⟨S_, .f32⟩
  | 85 => ⟨S50000x128, .f32⟩
  | 86 => ⟨S650000x1, .i32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x2, .f32⟩
  | 95 => ⟨S_, .i32⟩
  | 96 => ⟨S650000, .i32⟩
  | 97 => ⟨S650000, .i1⟩
  | 98 => ⟨S_, .i32⟩
  | 99 => ⟨S650000, .i32⟩
  | 100 => ⟨S650000, .i32⟩
  | 101 => ⟨S650000, .i32⟩
  | 102 => ⟨S650000x1, .i32⟩
  | 103 => ⟨S650000x2, .f32⟩
  | 104 => ⟨S650000x1, .f32⟩
  | 105 => ⟨S650000x2, .f32⟩
  | 106 => ⟨S650000x2, .f32⟩
  | 107 => ⟨S_, .f32⟩
  | 108 => ⟨S50000x2, .f32⟩
  | 109 => ⟨S650000x1, .i32⟩
  | 110 => ⟨S50000x2, .f32⟩
  | 111 => ⟨S1x2, .f32⟩
  | 112 => ⟨S50000x2, .f32⟩
  | 113 => ⟨S50000x2, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x2, .f32⟩
  | 121 => ⟨S50000x2, .f32⟩
  | 122 => ⟨S50000x2, .f32⟩
  | 123 => ⟨S_, .f32⟩
  | 124 => ⟨S50000, .f32⟩
  | 125 => ⟨S50000x1, .f32⟩
  | 126 => ⟨S50000x1, .f32⟩
  | 127 => ⟨S50000x2, .f32⟩
  | _ => ⟨S50000x128, .f32⟩

abbrev hbmTy0_1 (i : Nat) : BufTy := match i % 128 with
  | 0 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x256_0_1 : S650000x1.BroadcastsInDim S650000x256 (![0, 1] : Fin 2 → Fin S650000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x2_0_1 : S650000x1.BroadcastsInDim S650000x2 (![0, 1] : Fin 2 → Fin S650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x256_S50000x256_1_0_0_1_n_n_wf : DotDims.WF S50000x128 S128x256 S50000x256 [1] [0] [0] [1] [] []
  gather_S50000x256_S650000x1_S650000x256_1_0_n_n_0_1_1256_wf : GatherDims.WF S50000x256 S650000x1 S650000x256 [1] [0] [] [0] [] 1 ![1, 256]
  scatter_S50000x256_S650000x1_S650000x256_1_0_0_1_wf : ScatterDims.WF S50000x256 S650000x1 S650000x256 [1] [0] [0] 1
  dot_S50000x256_S256x128_S50000x128_1_0_0_1_n_n_wf : DotDims.WF S50000x256 S256x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x2_S50000x2_1_0_0_1_n_n_wf : DotDims.WF S50000x128 S128x2 S50000x2 [1] [0] [0] [1] [] []
  gather_S50000x2_S650000x1_S650000x2_1_0_n_n_0_1_12_wf : GatherDims.WF S50000x2 S650000x1 S650000x2 [1] [0] [] [0] [] 1 ![1, 2]
  scatter_S50000x2_S650000x1_S650000x2_1_0_0_1_wf : ScatterDims.WF S50000x2 S650000x1 S650000x2 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S650000x1_S650000x256_1_0_n_n_0_1_1256 : GatherDims S50000x256 S650000x1 S650000x256 where
  offsetDims := [1]
  collapsedSliceDims := [0]
  operandBatchingDims := []
  startIndicesBatchingDims := []
  startIndexMap := [0]
  indexVectorDim := 1
  sliceSizes := ![1, 256]
  wf := gather_S50000x256_S650000x1_S650000x256_1_0_n_n_0_1_1256_wf
def scatter_S50000x256_S650000x1_S650000x256_1_0_0_1 : ScatterDims S50000x256 S650000x1 S650000x256 where
  updateWindowDims := [1]
  insertedWindowDims := [0]
  scatterDimsToOperandDims := [0]
  indexVectorDim := 1
  wf := scatter_S50000x256_S650000x1_S650000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S650000x1_S650000x2_1_0_n_n_0_1_12 : GatherDims S50000x2 S650000x1 S650000x2 where
  offsetDims := [1]
  collapsedSliceDims := [0]
  operandBatchingDims := []
  startIndicesBatchingDims := []
  startIndexMap := [0]
  indexVectorDim := 1
  sliceSizes := ![1, 2]
  wf := gather_S50000x2_S650000x1_S650000x2_1_0_n_n_0_1_12_wf
def scatter_S50000x2_S650000x1_S650000x2_1_0_0_1 : ScatterDims S50000x2 S650000x1 S650000x2 where
  updateWindowDims := [1]
  insertedWindowDims := [0]
  scatterDimsToOperandDims := [0]
  indexVectorDim := 1
  wf := scatter_S50000x2_S650000x1_S650000x2_1_0_0_1_wf

class Facts : Prop extends Facts₀ where

variable [Facts]
-- ==== Proof.Kept.lean ====
/-
  Which arrays survive which part of the program. The program is a sequence of host stretches and tiled calls;
  a host stretch changes only the arrays its operations write, and a tiled call only its own three arrays.
  So the three arrays of the graph part (sources, targets, edge weights), computed before the first call, are
  still there when each layer's aggregation reads them, and each weight matrix and bias vector is still as
  launched when its layer reads it. Every lemma walks one array back, boundary by boundary, to where it was
  written or to the launch.
-/
import proofs.«170341_j10453950399195_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A host stretch leaves an array that none of its operations writes: the operations' result arrays are listed and
    each is told apart from the array in question. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## From the first call's entry back to the launch -/

/-- An argument array is untouched by the graph part. -/
theorem W3_launch (c : Dev nD) (b : Ref sig .tc)
    (hb : b = main_arg0 ∨ b = main_arg1 ∨ b = main_arg2 ∨ b = main_arg3 ∨ b = main_arg4 ∨ b = main_arg5 ∨ b = main_arg6 ∨ b = main_arg7) :
    W3 m ρ c (Proc.devRef .tc b) = m ((c : Thread nD τ).loc b) := by
  rcases hb with rfl | rfl | rfl | rfl | rfl | rfl | rfl | rfl <;>
  exact (by host_keeps hostOps0_2 : W3 m ρ c _ = W2 m ρ c _).trans
    ((by host_keeps hostOps0_1 : W2 m ρ c _ = W1 m ρ c _).trans
      ((by host_keeps hostOps0 : W1 m ρ c _ = W0 m ρ c _).trans rfl))

/-! ## The graph part's three arrays, and the later layers' parameters, at each later boundary -/

/-- The first call writes none of them. -/
theorem W4_W3 (c : Dev nD) (b : Ref sig .tc)
    (hb : b = main_v3 ∨ b = main_v6 ∨ b = main_v29 ∨ b = main_arg2 ∨ b = main_arg3 ∨ b = main_arg4 ∨ b = main_arg5 ∨ b = main_arg6) :
    W4 m ρ c (Proc.devRef .tc b) = W3 m ρ c (Proc.devRef .tc b) := by
  rcases hb with rfl | rfl | rfl | rfl | rfl | rfl | rfl | rfl <;> exact W4_of_ne m ρ c _ (by decide)

/-- Nor does the first layer's aggregation or its second call. -/
theorem W6_W4 (c : Dev nD) (b : Ref sig .tc)
    (hb : b = main_v3 ∨ b = main_v6 ∨ b = main_v29 ∨ b = main_arg3 ∨ b = main_arg4 ∨ b = main_arg5 ∨ b = main_arg6) :
    W6 m ρ c (Proc.devRef .tc b) = W4 m ρ c (Proc.devRef .tc b) := by
  rcases hb with rfl | rfl | rfl | rfl | rfl | rfl | rfl <;>
  exact (W6_of_ne m ρ c _ (by decide)).trans (by host_keeps hostOps1 : W5 m ρ c _ = W4 m ρ c _)

/-- The second layer's product call writes its result only. -/
theorem W7_W6 (c : Dev nD) (b : Ref sig .tc)
    (hb : b = main_v3 ∨ b = main_v6 ∨ b = main_v29 ∨ b = main_arg4 ∨ b = main_arg5 ∨ b = main_arg6) :
    W7 m ρ c (Proc.devRef .tc b) = W6 m ρ c (Proc.devRef .tc b) := by
  rcases hb with rfl | rfl | rfl | rfl | rfl | rfl <;> exact W7_of_ne m ρ c _ (by decide)

/-- The second layer's aggregation and its second call. -/
theorem W9_W7 (c : Dev nD) (b : Ref sig .tc)
    (hb : b = main_v3 ∨ b = main_v6 ∨ b = main_v29 ∨ b = main_arg5 ∨ b = main_arg6) :
    W9 m ρ c (Proc.devRef .tc b) = W7 m ρ c (Proc.devRef .tc b) := by
  rcases hb with rfl | rfl | rfl | rfl | rfl <;>
  exact (W9_of_ne m ρ c _ (by decide)).trans (by host_keeps hostOps3 : W8 m ρ c _ = W7 m ρ c _)

/-- The third layer's product call. -/
theorem W10_W9 (c : Dev nD) (b : Ref sig .tc)
    (hb : b = main_v3 ∨ b = main_v6 ∨ b = main_v29 ∨ b = main_arg6) :
    W10 m ρ c (Proc.devRef .tc b) = W9 m ρ c (Proc.devRef .tc b) := by
  rcases hb with rfl | rfl | rfl | rfl <;> exact W10_of_ne m ρ c _ (by decide)

end Cert.KernelIdeal.Kept

end
-- ==== Proof.Spec.lean ====
/-
  What each of the six tiled calls computes, as one function of whole arrays over the extended reals.
  A node-feature table has one row per graph node. A linear layer multiplies the table by a weight matrix
  (`mm`); after the neighbourhood sums, the bias row is added to every node's row and the negative part is
  cut off (`biasRelu`), or, in the last layer, each node's row is turned into log-probabilities
  (`biasLsm`: the row minus its maximum, minus the logarithm of the sum of the exponentials of that).
  Rows are independent of one another in all three, which is why a row-tiled evaluation gives the same table.
-/
import Idealize.ShloMosaic.PureOps.Ideal
import Idealize.ShloMosaic.Lib.ValueIdx

noncomputable section

namespace Cert.Spec

open Idealize.ShloMosaic Idealize.ShloMosaic.ValueIdx

/-- The product of an `n × k` table and a `k × d` matrix: entry `(r, c)` is `∑ q, x (r, q) · w (q, c)`. -/
def mm {n k d : Nat} (x : (⟨2, ![n, k]⟩ : Shape).Idx → EReal) (w : (⟨2, ![k, d]⟩ : Shape).Idx → EReal) :
    (⟨2, ![n, d]⟩ : Shape).Idx → EReal :=
  fun i => ∑ q : Fin k, x (ix2 (i 0) q) * w (ix2 q (i 1))

/-- The bias row `b` (kept as a `1 × d` table) added to every row of `a`, then the maximum with the f32 zero word. -/
def biasRelu {n d : Nat} (a : (⟨2, ![n, d]⟩ : Shape).Idx → EReal) (b : (⟨2, ![1, d]⟩ : Shape).Idx → EReal) :
    (⟨2, ![n, d]⟩ : Shape).Idx → EReal :=
  fun i => max (a i + b (ix2 0 (i 1))) (Ideal.ofBits .f32 0x00000000#32)

/-- Row `r` of `a` plus the bias row: the logits of node `r`. -/
def logits {n d : Nat} (a : (⟨2, ![n, d]⟩ : Shape).Idx → EReal) (b : (⟨2, ![1, d]⟩ : Shape).Idx → EReal)
    (r : Fin n) : Fin d → EReal :=
  fun j => a (ix2 r j) + b (ix2 0 j)

/-- The largest logit of a row, the maximum taken from the f32 word of `-∞`. -/
def rowMax {d : Nat} (h : Fin d → EReal) : EReal :=
  (Finset.univ : Finset (Fin d)).fold max (Ideal.ofBits .f32 0xFF800000#32) h

/-- Log-softmax of every row of `a + b`: `(h c − M) − log (∑ j, exp (h j − M))` with `h` the row's logits and `M` their
    maximum. -/
def biasLsm {n d : Nat} (a : (⟨2, ![n, d]⟩ : Shape).Idx → EReal) (b : (⟨2, ![1, d]⟩ : Shape).Idx → EReal) :
    (⟨2, ![n, d]⟩ : Shape).Idx → EReal :=
  fun i => (logits a b (i 0) (i 1) - rowMax (logits a b (i 0)))
    - Ideal.log (∑ j : Fin d, Ideal.exp (logits a b (i 0) j - rowMax (logits a b (i 0))))

end Cert.Spec

end
-- ==== Proof.Final.lean ====
/-
  The kernel program's host arithmetic between its six tiled calls, as named functions of whole arrays, and the
  whole forward pass `forward` composed from them and from the three row-wise functions of `Spec`.

  The graph part depends on the edge list only: `src` and `dst` are the two rows of the edge list, each followed
  by the self-loop `0, 1, …, 49999`; `deg` counts how often a node occurs in `dst`; `dinv` is `deg^(-1/2)` where
  `deg > 0` and `0` elsewhere; `norm e = dinv (src e) · dinv (dst e)` for each of the 650000 edges. A negative
  index is first moved up by 50000 (`wrapIdx`).

  A layer's aggregation `agg…` takes the table `h` of transformed features: row `src e` of `h`, scaled by
  `norm e`, is added into row `dst e` of a zero table, over all edges `e`. There is one such function per feature
  width (256, 128, 2). `rowOf…` views a bias vector as a table of one row.
-/
import proofs.«170341_j10453950399195_1_alg».proof.KernelIdeal
import proofs.«170341_j10453950399195_1_alg».proof.Proof.Gen.KernelIdeal
import proofs.«170341_j10453950399195_1_alg».proof.Proof.Spec

noncomputable section

namespace Cert.KernelIdeal.Chain

open Cert.KernelIdeal Cert.KernelIdeal.Facts₀ Cert.KernelIdeal.Facts Idealize.ShloMosaic

variable {F : FTy → Type} [FloatOps F]

/-- Row 0 of the edge list, then the self-loops. -/
def src (e : (⟨S2x600000, .i32⟩ : BufTy).Contents (Elt F)) : (⟨S650000, .i32⟩ : BufTy).Contents (Elt F) :=
  concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0

/-- Row 1 of the edge list, then the self-loops. -/
def dst (e : (⟨S2x600000, .i32⟩ : BufTy).Contents (Elt F)) : (⟨S650000, .i32⟩ : BufTy).Contents (Elt F) :=
  concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0

/-- A negative node index counts from the end: `v + 50000` where `v < 0`; then a column of one-entry index vectors. -/
def wrapIdx (v : (⟨S650000, .i32⟩ : BufTy).Contents (Elt F)) : (⟨S650000x1, .i32⟩ : BufTy).Contents (Elt F) :=
  broadcastInDim S650000x1 ![0] bcast_S650000_S650000x1_0 (select (cmpi .slt v (broadcastInDim S650000 ![] bcast_S_S650000 (constantI S_ 32 0#32))) (addi v (broadcastInDim S650000 ![] bcast_S_S650000 (constantI S_ 32 50000#32))) v)

/-- The in-degree of every node, self-loop included: ones added at `dst` into zeros. -/
def deg (e : (⟨S2x600000, .i32⟩ : BufTy).Contents (Elt F)) : (⟨S50000, .f32⟩ : BufTy).Contents (Elt F) :=
  Host.scatterAdd scatter_S50000_S650000x1_S650000_n_0_0_1 (broadcastInDim S50000 ![] bcast_S_S50000 (constant S_ .f32 0x00000000#32)) (broadcastInDim S650000x1 ![0] bcast_S650000_S650000x1_0 (dst (F := F) e)) (broadcastInDim S650000 ![] bcast_S_S650000 (constant S_ .f32 0x3F800000#32))

/-- `deg^(-1/2)` where the degree is positive, zero elsewhere. -/
def dinv (e : (⟨S2x600000, .i32⟩ : BufTy).Contents (Elt F)) : (⟨S50000, .f32⟩ : BufTy).Contents (Elt F) :=
  select (cmpf .ogt (deg (F := F) e) (broadcastInDim S50000 ![] bcast_S_S50000 (constant S_ .f32 0x00000000#32))) (Host.rsqrt (deg (F := F) e)) (broadcastInDim S50000 ![] bcast_S_S50000 (id (constant S_ .f32 0x00000000#32)))

/-- The symmetric normalisation of every edge: `dinv` at its source times `dinv` at its target. -/
def norm (e : (⟨S2x600000, .i32⟩ : BufTy).Contents (Elt F)) : (⟨S650000, .f32⟩ : BufTy).Contents (Elt F) :=
  mulf (Host.gather gather_S50000_S650000x1_S650000_n_0_n_n_0_1_1 (dinv (F := F) e) (wrapIdx (F := F) (src (F := F) e))) (Host.gather gather_S50000_S650000x1_S650000_n_0_n_n_0_1_1 (dinv (F := F) e) (wrapIdx (F := F) (dst (F := F) e)))

/-- Neighbourhood sums of a 256-wide table: row `s e` of `h` times `nrm e`, added into row `d e`. -/
def agg256 (h : (⟨S50000x256, .f32⟩ : BufTy).Contents (Elt F)) (s d : (⟨S650000, .i32⟩ : BufTy).Contents (Elt F))
    (nrm : (⟨S650000, .f32⟩ : BufTy).Contents (Elt F)) : (⟨S50000x256, .f32⟩ : BufTy).Contents (Elt F) :=
  Host.scatterAdd scatter_S50000x256_S650000x1_S650000x256_1_0_0_1 (broadcastInDim S50000x256 ![] bcast_S_S50000x256 (constant S_ .f32 0x00000000#32)) (broadcastInDim S650000x1 ![0] bcast_S650000_S650000x1_0 d) (mulf (Host.gather gather_S50000x256_S650000x1_S650000x256_1_0_n_n_0_1_1256 h (wrapIdx (F := F) s)) (broadcastInDim S650000x256 ![0, 1] bcast_S650000x1_S650000x256_0_1 (broadcastInDim S650000x1 ![0] bcast_S650000_S650000x1_0 nrm)))

/-- Neighbourhood sums of a 128-wide table. -/
def agg128 (h : (⟨S50000x128, .f32⟩ : BufTy).Contents (Elt F)) (s d : (⟨S650000, .i32⟩ : BufTy).Contents (Elt F))
    (nrm : (⟨S650000, .f32⟩ : BufTy).Contents (Elt F)) : (⟨S50000x128, .f32⟩ : BufTy).Contents (Elt F) :=
  Host.scatterAdd scatter_S50000x128_S650000x1_S650000x128_1_0_0_1 (broadcastInDim S50000x128 ![] bcast_S_S50000x128 (constant S_ .f32 0x00000000#32)) (broadcastInDim S650000x1 ![0] bcast_S650000_S650000x1_0 d) (mulf (Host.gather gather_S50000x128_S650000x1_S650000x128_1_0_n_n_0_1_1128 h (wrapIdx (F := F) s)) (broadcastInDim S650000x128 ![0, 1] bcast_S650000x1_S650000x128_0_1 (broadcastInDim S650000x1 ![0] bcast_S650000_S650000x1_0 nrm)))

/-- Neighbourhood sums of a 2-wide table. -/
def agg2 (h : (⟨S50000x2, .f32⟩ : BufTy).Contents (Elt F)) (s d : (⟨S650000, .i32⟩ : BufTy).Contents (Elt F))
    (nrm : (⟨S650000, .f32⟩ : BufTy).Contents (Elt F)) : (⟨S50000x2, .f32⟩ : BufTy).Contents (Elt F) :=
  Host.scatterAdd scatter_S50000x2_S650000x1_S650000x2_1_0_0_1 (broadcastInDim S50000x2 ![] bcast_S_S50000x2 (constant S_ .f32 0x00000000#32)) (broadcastInDim S650000x1 ![0] bcast_S650000_S650000x1_0 d) (mulf (Host.gather gather_S50000x2_S650000x1_S650000x2_1_0_n_n_0_1_12 h (wrapIdx (F := F) s)) (broadcastInDim S650000x2 ![0, 1] bcast_S650000x1_S650000x2_0_1 (broadcastInDim S650000x1 ![0] bcast_S650000_S650000x1_0 nrm)))

/-- A 256-vector as a table of one row. -/
def rowOf256 (b : (⟨S256, .f32⟩ : BufTy).Contents (Elt F)) : (⟨S1x256, .f32⟩ : BufTy).Contents (Elt F) :=
  shapeCast _ b shapeCasts_S256_S1x256
/-- A 128-vector as a table of one row. -/
def rowOf128 (b : (⟨S128, .f32⟩ : BufTy).Contents (Elt F)) : (⟨S1x128, .f32⟩ : BufTy).Contents (Elt F) :=
  shapeCast _ b shapeCasts_S128_S1x128
/-- A 2-vector as a table of one row. -/
def rowOf2 (b : (⟨S2, .f32⟩ : BufTy).Contents (Elt F)) : (⟨S1x2, .f32⟩ : BufTy).Contents (Elt F) :=
  shapeCast _ b shapeCasts_S2_S1x2

/-- The first layer over the extended reals: multiply by `w1`, sum over each node's neighbourhood, add the bias and cut
    off the negative part. -/
def layer1 (x : (⟨S50000x128, .f32⟩ : BufTy).Contents (Elt Ideal)) (w1 : (⟨S128x256, .f32⟩ : BufTy).Contents (Elt Ideal))
    (b1 : (⟨S256, .f32⟩ : BufTy).Contents (Elt Ideal)) (e : (⟨S2x600000, .i32⟩ : BufTy).Contents (Elt Ideal)) :
    (⟨S50000x256, .f32⟩ : BufTy).Contents (Elt Ideal) :=
  Cert.Spec.biasRelu (agg256 (F := Ideal) (Cert.Spec.mm x w1) (src (F := Ideal) e) (dst (F := Ideal) e) (norm (F := Ideal) e)) (rowOf256 (F := Ideal) b1)

/-- The second layer, of the first layer's table. -/
def layer2 (h1 : (⟨S50000x256, .f32⟩ : BufTy).Contents (Elt Ideal)) (w2 : (⟨S256x128, .f32⟩ : BufTy).Contents (Elt Ideal))
    (b2 : (⟨S128, .f32⟩ : BufTy).Contents (Elt Ideal)) (e : (⟨S2x600000, .i32⟩ : BufTy).Contents (Elt Ideal)) :
    (⟨S50000x128, .f32⟩ : BufTy).Contents (Elt Ideal) :=
  Cert.Spec.biasRelu (agg128 (F := Ideal) (Cert.Spec.mm h1 w2) (src (F := Ideal) e) (dst (F := Ideal) e) (norm (F := Ideal) e)) (rowOf128 (F := Ideal) b2)

/-- The third layer, of the second layer's table: its rows end as log-probabilities. -/
def layer3 (h2 : (⟨S50000x128, .f32⟩ : BufTy).Contents (Elt Ideal)) (w3 : (⟨S128x2, .f32⟩ : BufTy).Contents (Elt Ideal))
    (b3 : (⟨S2, .f32⟩ : BufTy).Contents (Elt Ideal)) (e : (⟨S2x600000, .i32⟩ : BufTy).Contents (Elt Ideal)) :
    (⟨S50000x2, .f32⟩ : BufTy).Contents (Elt Ideal) :=
  Cert.Spec.biasLsm (agg2 (F := Ideal) (Cert.Spec.mm h2 w3) (src (F := Ideal) e) (dst (F := Ideal) e) (norm (F := Ideal) e)) (rowOf2 (F := Ideal) b3)

/-- The whole forward pass: the three layers in turn over one graph. -/
def forward (x : (⟨S50000x128, .f32⟩ : BufTy).Contents (Elt Ideal)) (w1 : (⟨S128x256, .f32⟩ : BufTy).Contents (Elt Ideal))
    (b1 : (⟨S256, .f32⟩ : BufTy).Contents (Elt Ideal)) (w2 : (⟨S256x128, .f32⟩ : BufTy).Contents (Elt Ideal))
    (b2 : (⟨S128, .f32⟩ : BufTy).Contents (Elt Ideal)) (w3 : (⟨S128x2, .f32⟩ : BufTy).Contents (Elt Ideal))
    (b3 : (⟨S2, .f32⟩ : BufTy).Contents (Elt Ideal)) (e : (⟨S2x600000, .i32⟩ : BufTy).Contents (Elt Ideal)) :
    (⟨S50000x2, .f32⟩ : BufTy).Contents (Elt Ideal) :=
  layer3 (layer2 (layer1 x w1 b1 e) w2 b2 e) w3 b3 e

end Cert.KernelIdeal.Chain

end
-- ==== Proof.Stretch.lean ====
/-
  What each host stretch of the kernel program computes, read off the program's fold of buffer contents.
  The stretch before the first tiled call builds the graph arrays from the edge list: sources, targets (each with
  the self-loops appended), the degree count, its inverse square root where positive, and the per-edge weight.
  The stretch after each product call gathers the product's rows at the sources, scales them by the edge weights
  and sums them into the target rows, and lays the layer's bias vector out as a table of one row.
  Every statement gives one array after a stretch as the named function (`Chain`) of arrays before it.
-/
import proofs.«170341_j10453950399195_1_alg».proof.Proof.Gen.KernelIdeal.Frame
import proofs.«170341_j10453950399195_1_alg».proof.Proof.Final
import proofs.«170341_j10453950399195_1_alg».proof.Proof.Kept
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The graph part -/

set_option maxHeartbeats 4000000 in
/-- The sources: row 0 of the edge list and the self-loops. -/
theorem W3_src (c : Dev nD) :
    W3 m ρ c (Proc.devRef .tc main_v3) = Chain.src (F := F) (m ((c : Thread nD τ).loc main_arg7)) := by
  dsimp only [W3, W2, W1, hostOps0, hostOps0_1, hostOps0_2]
  after_results_simp
  rfl

set_option maxHeartbeats 4000000 in
/-- The targets: row 1 of the edge list and the self-loops. -/
theorem W3_dst (c : Dev nD) :
    W3 m ρ c (Proc.devRef .tc main_v6) = Chain.dst (F := F) (m ((c : Thread nD τ).loc main_arg7)) := by
  dsimp only [W3, W2, W1, hostOps0, hostOps0_1, hostOps0_2]
  after_results_simp
  rfl

set_option maxHeartbeats 16000000 in
/-- The edge weights: the inverse square roots of the degrees at the two ends of every edge, multiplied. -/
theorem W3_norm (c : Dev nD) :
    W3 m ρ c (Proc.devRef .tc main_v29) = Chain.norm (F := F) (m ((c : Thread nD τ).loc main_arg7)) := by
  dsimp only [W3, W2, W1, hostOps0, hostOps0_1, hostOps0_2]
  after_results_simp
  try simp only [TRef.ofBuf, TRef.toBuf, cast_eq]
  rfl

/-! ## After the first product -/

set_option maxHeartbeats 4000000 in
/-- The neighbourhood sums of the first product. -/
theorem W5_agg (c : Dev nD) :
    W5 m ρ c (Proc.devRef .tc main_v43)
      = Chain.agg256 (F := F) (W4 m ρ c (Proc.devRef .tc main_v30)) (W4 m ρ c (Proc.devRef .tc main_v3))
          (W4 m ρ c (Proc.devRef .tc main_v6)) (W4 m ρ c (Proc.devRef .tc main_v29)) := by
  dsimp only [W5, hostOps1]
  after_results_simp
  rfl

/-- The first bias as a table of one row. -/
theorem W5_row (c : Dev nD) :
    W5 m ρ c (Proc.devRef .tc main_v44) = Chain.rowOf256 (F := F) (W4 m ρ c (Proc.devRef .tc main_arg2)) := by
  dsimp only [W5, hostOps1]
  after_results
  rfl

/-! ## After the second product -/

set_option maxHeartbeats 4000000 in
/-- The neighbourhood sums of the second product. -/
theorem W8_agg (c : Dev nD) :
    W8 m ρ c (Proc.devRef .tc main_v59)
      = Chain.agg128 (F := F) (W7 m ρ c (Proc.devRef .tc main_v46)) (W7 m ρ c (Proc.devRef .tc main_v3))
          (W7 m ρ c (Proc.devRef .tc main_v6)) (W7 m ρ c (Proc.devRef .tc main_v29)) := by
  dsimp only [W8, hostOps3]
  after_results_simp
  rfl

/-- The second bias as a table of one row. -/
theorem W8_row (c : Dev nD) :
    W8 m ρ c (Proc.devRef .tc main_v60) = Chain.rowOf128 (F := F) (W7 m ρ c (Proc.devRef .tc main_arg4)) := by
  dsimp only [W8, hostOps3]
  after_results
  rfl

/-! ## After the third product -/

set_option maxHeartbeats 4000000 in
/-- The neighbourhood sums of the third product. -/
theorem W11_agg (c : Dev nD) :
    W11 m ρ c (Proc.devRef .tc main_v75)
      = Chain.agg2 (F := F) (W10 m ρ c (Proc.devRef .tc main_v62)) (W10 m ρ c (Proc.devRef .tc main_v3))
          (W10 m ρ c (Proc.devRef .tc main_v6)) (W10 m ρ c (Proc.devRef .tc main_v29)) := by
  dsimp only [W11, hostOps5]
  after_results_simp
  rfl

/-- The third bias as a table of one row. -/
theorem W11_row (c : Dev nD) :
    W11 m ρ c (Proc.devRef .tc main_v76) = Chain.rowOf2 (F := F) (W10 m ρ c (Proc.devRef .tc main_arg6)) := by
  dsimp only [W11, hostOps5]
  after_results
  rfl

end Cert.KernelIdeal.Stretch

end
-- ==== Proof.Reg0.lean ====
import proofs.«170341_j10453950399195_1_alg».proof.Proof.Gen.KernelIdeal.Frame
import proofs.«170341_j10453950399195_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The tile's product at an index

The body multiplies a 2000 × 128 tile of the node table by the whole 128 × 256 weight matrix, contracting the tile's
second axis with the matrix's first. Over the extended reals the narrowing of both operands is the identity and the
accumulator is the zero table, so entry `(p, q)` of the result is `∑ k, tile (p, k) · weight (k, q)`. -/

/-- The left operand's row coordinate is the output's row. -/
theorem lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand's column coordinate is the summation index. -/
theorem lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The right operand's row coordinate is the summation index. -/
theorem rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The right operand's column coordinate is the output's column. -/
theorem rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Entry `(p, q)` of what the body stores: the sum over `k` of tile entry `(p, k)` times weight entry `(k, q)`. -/
theorem pay_apply (x0 : Vec Ideal S2000x128 .f32) (x1 : Vec Ideal S128x256 .f32) (p : Fin 2000) (q : Fin 256) :
    k0_pay1 (F := Ideal) x0 x1 (ix2 p q) = ∑ k : Fin 128, x0 (ix2 p k) * x1 (ix2 k q) := by
  unfold k0_pay1
  refine (Ideal.matmul_constant_zero_apply dot_S2000x128_S128x256_S2000x256_1_0_0_1_n_n none _ _ (ix2 p q)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_row _ _).trans hk
    | ⟨1, _⟩ => exact rhs_col _ _)
  show x0 _ * x1 _ = _
  rw [el, er]

/-- Spelled out at a row `i` of the table and a tile row `j` with `i = 2000·b + j`: when the left block is rows
    `2000·b … 2000·b + 1999` of the node table `a0` and the right block is the whole weight matrix `a1`, entry `j` of
    what the body stores is entry `i` of the product `a0 · a1`. -/
theorem point_apply (x0 : Vec Ideal S2000x128 .f32) (x1 : Vec Ideal S128x256 .f32)
    (a0 : S50000x128.Idx → EReal) (a1 : S128x256.Idx → EReal) (b : Nat)
    (h0 : ∀ (y : S2000x128.Idx) (i : S50000x128.Idx), (i 0).val = b * 2000 + (y 0).val → (i 1).val = (y 1).val → x0 y = a0 i)
    (h1 : x1 = a1)
    (j : S2000x256.Idx) (i : S50000x256.Idx) (hi0 : (i 0).val = b * 2000 + (j 0).val) (hi1 : (i 1).val = (j 1).val) :
    k0_pay1 (F := Ideal) x0 x1 j = Cert.Spec.mm a0 a1 i := by
  obtain ⟨p, q, rfl⟩ : ∃ (p : Fin 2000) (q : Fin 256), j = ix2 p q := ⟨j 0, j 1, eq_ix2 j⟩
  rw [pay_apply]
  show _ = ∑ k : Fin 128, a0 (ix2 (i 0) k) * a1 (ix2 k (i 1))
  refine Finset.sum_congr rfl fun k _ => ?_
  have el : x0 (ix2 p k) = a0 (ix2 (i 0) k) := h0 _ _ hi0 rfl
  have er : x1 (ix2 k q) = a1 (ix2 k (i 1)) := by
    rw [h1]
    refine congrArg a1 (funext fun a => Fin.ext ?_)
    match a with
    | ⟨0, _⟩ => rfl
    | ⟨1, _⟩ => exact hi1.symm
  rw [el, er]

/-! ## The printed index maps over the grid

Grid point `t` (of 25) takes the left table's and the output table's block number `t` along the rows and block 0 along
the columns, and always the one block of the weight matrix. -/

theorem hz : (![0, 0] : Fin 2 → Nat) = fun _ => 0 := funext fun a => by fin_cases a <;> rfl

/-- The left window's row block is the output window's, at most 24; every other block index is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 24
    ∧ win0_2.index t (1 : Fin 2) = 0 :=
  (by decide +kernel : ∀ t : Fin grid0.N, _)

/-- Every one of the 25 row blocks of the output table is some grid point's. -/
theorem idx_onto : ∀ q : Fin 25, ∃ t : Fin cfg0.N, win0_2.index t = ![q.val, 0] :=
  (by decide +kernel : ∀ q : Fin 25, ∃ t : Fin grid0.N, win0_2.index t = ![q.val, 0])

/-! ## From the tiles to the table -/

/-- What grid point `t` writes back is block `t` of the product of the node table and the weight matrix as the call
    finds them. -/
theorem flushed_eq (c : Dev nD) (t : Fin cfg0.N) :
    (dat0 (F := Ideal) V c).flushed 2 t
      = ((cfg0.win 2).blk t).view.read (Elt Ideal) (Cert.Spec.mm (n := 50000) (k := 128) (d := 256) (V c main_arg0) (V c main_arg1)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  obtain ⟨e0, e1, e2, e3, e4, e5⟩ := idx_facts t
  funext j
  show k0_pay1 (F := Ideal) (iblk0 V c 0 t) (iblk0 V c 1 t) j
    = Cert.Spec.mm (n := 50000) (k := 128) (d := 256) (V c main_arg0) (V c main_arg1) (((cfg0.win 2).blk t).view.emb j)
  refine point_apply _ _ _ _ (win0_2.index t (0 : Fin 2)) ?_ ?_ j _ ?_ ?_
  · intro y i hy0 hy1
    show V c main_arg0 (((cfg0.win 0).blk t).view.emb y) = V c main_arg0 i
    refine congrArg (V c main_arg0) (funext fun a => Fin.ext ?_)
    match a with
    | ⟨0, _⟩ => show win0_0.index t (0 : Fin 2) * 2000 + 1 * (y 0).val = (i 0).val; omega
    | ⟨1, _⟩ => show win0_0.index t (1 : Fin 2) * 128 + 1 * (y 1).val = (i 1).val; omega
  · funext y
    show V c main_arg1 (((cfg0.win 1).blk t).view.emb y) = V c main_arg1 y
    refine congrArg (V c main_arg1) (funext fun a => Fin.ext ?_)
    match a with
    | ⟨0, _⟩ => show win0_1.index t (0 : Fin 2) * 128 + 1 * (y 0).val = (y 0).val; omega
    | ⟨1, _⟩ => show win0_1.index t (1 : Fin 2) * 256 + 1 * (y 1).val = (y 1).val; omega
  · show win0_2.index t (0 : Fin 2) * 2000 + 1 * (j 0).val = _; omega
  · show win0_2.index t (1 : Fin 2) * 256 + 1 * (j 1).val = _; omega

/-- A row-and-column index of the output table is in point `t`'s block iff each coordinate is in the block's range on
    its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Every entry of the output table is written back by some grid point: row `r` by the point whose row block is
    `r / 2000`. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the call the output table is the product of the node table and the weight matrix as the call found them. -/
theorem final (c : Dev nD) :
    (dat0 (F := Ideal) V c).arrAt 2 cfg0.N = Cert.Spec.mm (V c main_arg0) (V c main_arg1) :=
  (dat0 (F := Ideal) V c).arrAt_eq_of_cover 2 _ (fun t _ => flushed_eq V c t) (fun i => cover i)

end Cert.KernelIdeal.Reg0

end
-- ==== Proof.Reg1.lean ====
/-
  The second tiled call: the bias row added to every row of the 50000 × 256 table and the negative part cut off.
  The call works on 25 tiles of 2000 rows. At every tile the stored value at (p, q) is the tile's entry plus the bias
  of column q, or the f32 zero word if that is larger (`payload_apply`), which is the specification's formula at the
  table index the tile's (p, q) stands for (`payload_eq_spec`). The input tile and the output tile of a point have
  the same row block, the bias block is the whole bias row at every point (`index_facts`), so what a point writes
  back is its block of the specification's table (`flushed_eq`). Row r lies in the block of the point whose row-block
  index is r / 2000, so the 25 blocks cover the table (`cover`), and the table ends as the specification's (`final`).
-/
import proofs.«170341_j10453950399195_1_alg».proof.Proof.Gen.KernelIdeal.Frame
import proofs.«170341_j10453950399195_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The bias row spread over the 2000 rows of a tile, read at row `p`, column `q`: the bias at column `q`. -/
theorem bias_row_apply (x1 : Vec Ideal S1x256 .f32) (h : S1x256.Broadcasts S2000x256) (p : Fin 2000) (q : Fin 256) :
    broadcastTo S2000x256 x1 h (ix2 p q) = x1 (ix2 0 q) :=
  broadcastTo_apply x1 h (ix2 p q) (ix2 0 q) fun a => by
    match a with
    | ⟨0, _⟩ => rfl
    | ⟨1, _⟩ => rfl

/-- What the body stores, read at row `p`, column `q` of the tile: the tile's entry plus the bias of that column,
    or the zero word if that is larger. -/
theorem payload_apply (x0 : Vec Ideal S2000x256 .f32) (x1 : Vec Ideal S1x256 .f32) (p : Fin 2000) (q : Fin 256) :
    k1_pay1 (F := Ideal) x0 x1 (ix2 p q)
      = max (x0 (ix2 p q) + x1 (ix2 0 q)) (Ideal.ofBits .f32 0x00000000#32) := by
  unfold k1_pay1
  rw [shapeCast_self, shapeCast_self]
  exact congrArg (fun z => max (x0 (ix2 p q) + z) (Ideal.ofBits .f32 0x00000000#32)) (bias_row_apply x1 _ p q)

/-- A tile `x0` that holds the table `a` at index `i` where the tile is read at `j`, with the same column, and a bias
    block `x1` that is the bias row `b`: the body's result at `j` is the specification's at `i`. -/
theorem payload_eq_spec (a : S50000x256.Idx → EReal) (b : S1x256.Idx → EReal)
    (x0 : Vec Ideal S2000x256 .f32) (x1 : Vec Ideal S1x256 .f32) (j : S2000x256.Idx) (i : S50000x256.Idx)
    (h0 : x0 j = a i) (h1 : ∀ q : Fin 256, x1 (ix2 0 q) = b (ix2 0 q)) (hi : (i 1).val = (j 1).val) :
    k1_pay1 (F := Ideal) x0 x1 j = Cert.Spec.biasRelu a b i := by
  obtain ⟨p, q, rfl⟩ : ∃ (p : Fin 2000) (q : Fin 256), j = ix2 p q := ⟨j 0, j 1, eq_ix2 j⟩
  have hq : i 1 = q := Fin.ext hi
  rw [payload_apply, h0, h1]
  unfold Cert.Spec.biasRelu
  rw [hq]

/-- The printed index maps over the 25 points: the input tile's row-block index is the output tile's and is at most 24;
    every column-block index, and both block indices of the bias, are 0. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 24
    ∧ win1_2.index t (1 : Fin 2) = 0 :=
  (by decide +kernel : ∀ t : Fin grid1.N, _)

/-- Every one of the 25 row blocks is some point's output block. -/
theorem index_onto : ∀ q : Fin 25, ∃ t : Fin cfg1.N, win1_2.index t = ![q.val, 0] :=
  (by decide +kernel : ∀ q : Fin 25, ∃ t : Fin grid1.N, win1_2.index t = ![q.val, 0])

/-- What point `t` writes back is its block of the specification's table of the arrays as the region finds them. -/
theorem flushed_eq (c : Dev nD) (t : Fin cfg1.N) :
    (dat1 (F := Ideal) V c).flushed 2 t
      = ((cfg1.win 2).blk t).view.read (Elt Ideal) (Cert.Spec.biasRelu (V c main_v43) (V c main_v44)) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S1x256) zero_offsets]
  obtain ⟨e0, e1, e2, e3, e4, e5⟩ := index_facts t
  funext j
  show k1_pay1 (F := Ideal) (iblk1 V c 0 t) (iblk1 V c 1 t) j
      = Cert.Spec.biasRelu (V c main_v43) (V c main_v44) (((cfg1.win 2).blk t).view.emb j)
  refine payload_eq_spec (V c main_v43) (V c main_v44) _ _ j _ ?_ ?_ ?_
  · -- the input tile is read where the output's rectangle says: same row block, column block 0
    show V c main_v43 (((cfg1.win 0).blk t).view.emb j) = V c main_v43 (((cfg1.win 2).blk t).view.emb j)
    refine congrArg (V c main_v43) (funext fun a => Fin.ext ?_)
    match a with
    | ⟨0, _⟩ =>
      show win1_0.index t (0 : Fin 2) * 2000 + 1 * (j 0).val = win1_2.index t (0 : Fin 2) * 2000 + 1 * (j 0).val
      omega
    | ⟨1, _⟩ =>
      show win1_0.index t (1 : Fin 2) * 256 + 1 * (j 1).val = win1_2.index t (1 : Fin 2) * 256 + 1 * (j 1).val
      omega
  · -- the bias block is the whole bias row: block index (0, 0)
    intro q
    show V c main_v44 (((cfg1.win 1).blk t).view.emb (ix2 0 q)) = V c main_v44 (ix2 0 q)
    refine congrArg (V c main_v44) (funext fun a => Fin.ext ?_)
    match a with
    | ⟨0, _⟩ =>
      show win1_1.index t (0 : Fin 2) * 1 + 1 * 0 = 0
      omega
    | ⟨1, _⟩ =>
      show win1_1.index t (1 : Fin 2) * 256 + 1 * q.val = q.val
      omega
  · -- the output block's column is the table's column
    show win1_2.index t (1 : Fin 2) * 256 + 1 * (j 1).val = (j 1).val
    omega

/-- An index of the table is in point `t`'s output block iff each coordinate is in the block's range on its axis. -/
theorem mem_block (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v45).slice (win1_2.rect t)).set ↔ _
  rw [View.set_slice_whole, Rect.mem_set_unit]
  exact Iff.rfl

/-- Row `r` of the table is in the block of the point whose row-block index is `r / 2000`: the 25 blocks cover the table. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := index_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 256 ≤ (i 1).val ∧ (i 1).val < win1_2.index t (1 : Fin 2) * 256 + 256
    omega

/-- The output table after the region is the specification's table of the two arrays the region reads. -/
theorem final (c : Dev nD) :
    (dat1 (F := Ideal) V c).arrAt 2 cfg1.N = Cert.Spec.biasRelu (V c main_v43) (V c main_v44) :=
  (dat1 V c).arrAt_eq_of_cover 2 (Cert.Spec.biasRelu (V c main_v43) (V c main_v44)) (fun t _ => flushed_eq V c t) cover

end Cert.KernelIdeal.Reg1

end
-- ==== Proof.Reg2.lean ====
import proofs.«170341_j10453950399195_1_alg».proof.Proof.Gen.KernelIdeal.Frame
import proofs.«170341_j10453950399195_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The tile's product at an index

The body multiplies a 2000 × 256 tile of the hidden table by the whole 256 × 128 weight matrix, contracting the tile's
second axis with the matrix's first. The tile is first recast to its own shape, which changes nothing; over the
extended reals the narrowing of both operands is the identity and the accumulator is the zero table, so entry
`(p, q)` of the result is `∑ k, tile (p, k) · weight (k, q)`. -/

/-- The left operand's row coordinate is the output's row. -/
theorem lhs_row (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the summation index. -/
theorem lhs_col (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- The right operand's row coordinate is the summation index. -/
theorem rhs_row (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- The right operand's column coordinate is the output's column. -/
theorem rhs_col (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Entry `(p, q)` of what the body stores: the sum over `k` of tile entry `(p, k)` times weight entry `(k, q)`. -/
theorem pay_apply (x0 : Vec Ideal S2000x256 .f32) (x1 : Vec Ideal S256x128 .f32) (p : Fin 2000) (q : Fin 128) :
    k2_pay1 (F := Ideal) x0 x1 (ix2 p q) = ∑ k : Fin 256, x0 (ix2 p k) * x1 (ix2 k q) := by
  unfold k2_pay1
  refine (Ideal.matmul_constant_zero_apply dot_S2000x256_S256x128_S2000x128_1_0_0_1_n_n none _ _ (ix2 p q)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_row _ _).trans hk
    | ⟨1, _⟩ => exact rhs_col _ _)
  show shapeCast S2000x256 x0 shapeCasts_S2000x256_S2000x256 _ * x1 _ = _
  rw [shapeCast_self, el, er]

/-- Spelled out at a row `i` of the table and a tile row `j` with `i = 2000·b + j`: when the left block is rows
    `2000·b … 2000·b + 1999` of the hidden table `a0` and the right block is the whole weight matrix `a1`, entry `j` of
    what the body stores is entry `i` of the product `a0 · a1`. -/
theorem point_apply (x0 : Vec Ideal S2000x256 .f32) (x1 : Vec Ideal S256x128 .f32)
    (a0 : S50000x256.Idx → EReal) (a1 : S256x128.Idx → EReal) (b : Nat)
    (h0 : ∀ (y : S2000x256.Idx) (i : S50000x256.Idx), (i 0).val = b * 2000 + (y 0).val → (i 1).val = (y 1).val → x0 y = a0 i)
    (h1 : x1 = a1)
    (j : S2000x128.Idx) (i : S50000x128.Idx) (hi0 : (i 0).val = b * 2000 + (j 0).val) (hi1 : (i 1).val = (j 1).val) :
    k2_pay1 (F := Ideal) x0 x1 j = Cert.Spec.mm a0 a1 i := by
  obtain ⟨p, q, rfl⟩ : ∃ (p : Fin 2000) (q : Fin 128), j = ix2 p q := ⟨j 0, j 1, eq_ix2 j⟩
  rw [pay_apply]
  show _ = ∑ k : Fin 256, a0 (ix2 (i 0) k) * a1 (ix2 k (i 1))
  refine Finset.sum_congr rfl fun k _ => ?_
  have el : x0 (ix2 p k) = a0 (ix2 (i 0) k) := h0 _ _ hi0 rfl
  have er : x1 (ix2 k q) = a1 (ix2 k (i 1)) := by
    rw [h1]
    refine congrArg a1 (funext fun a => Fin.ext ?_)
    match a with
    | ⟨0, _⟩ => rfl
    | ⟨1, _⟩ => exact hi1.symm
  rw [el, er]

/-! ## The printed index maps over the grid

Grid point `t` (of 25) takes the left table's and the output table's block number `t` along the rows and block 0 along
the columns, and always the one block of the weight matrix. -/

theorem hz : (![0, 0] : Fin 2 → Nat) = fun _ => 0 := funext fun a => by fin_cases a <;> rfl

/-- The left window's row block is the output window's, at most 24; every other block index is 0. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 24
    ∧ win2_2.index t (1 : Fin 2) = 0 :=
  (by decide +kernel : ∀ t : Fin grid2.N, _)

/-- Every one of the 25 row blocks of the output table is some grid point's. -/
theorem idx_onto : ∀ q : Fin 25, ∃ t : Fin cfg2.N, win2_2.index t = ![q.val, 0] :=
  (by decide +kernel : ∀ q : Fin 25, ∃ t : Fin grid2.N, win2_2.index t = ![q.val, 0])

/-! ## From the tiles to the table -/

/-- What grid point `t` writes back is block `t` of the product of the hidden table and the weight matrix as the call
    finds them. -/
theorem flushed_eq (c : Dev nD) (t : Fin cfg2.N) :
    (dat2 (F := Ideal) V c).flushed 2 t
      = ((cfg2.win 2).blk t).view.read (Elt Ideal) (Cert.Spec.mm (n := 50000) (k := 256) (d := 128) (V c main_v45) (V c main_arg3)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x128) hz]
  obtain ⟨e0, e1, e2, e3, e4, e5⟩ := idx_facts t
  funext j
  show k2_pay1 (F := Ideal) (iblk2 V c 0 t) (iblk2 V c 1 t) j
    = Cert.Spec.mm (n := 50000) (k := 256) (d := 128) (V c main_v45) (V c main_arg3) (((cfg2.win 2).blk t).view.emb j)
  refine point_apply _ _ _ _ (win2_2.index t (0 : Fin 2)) ?_ ?_ j _ ?_ ?_
  · intro y i hy0 hy1
    show V c main_v45 (((cfg2.win 0).blk t).view.emb y) = V c main_v45 i
    refine congrArg (V c main_v45) (funext fun a => Fin.ext ?_)
    match a with
    | ⟨0, _⟩ => show win2_0.index t (0 : Fin 2) * 2000 + 1 * (y 0).val = (i 0).val; omega
    | ⟨1, _⟩ => show win2_0.index t (1 : Fin 2) * 256 + 1 * (y 1).val = (i 1).val; omega
  · funext y
    show V c main_arg3 (((cfg2.win 1).blk t).view.emb y) = V c main_arg3 y
    refine congrArg (V c main_arg3) (funext fun a => Fin.ext ?_)
    match a with
    | ⟨0, _⟩ => show win2_1.index t (0 : Fin 2) * 256 + 1 * (y 0).val = (y 0).val; omega
    | ⟨1, _⟩ => show win2_1.index t (1 : Fin 2) * 128 + 1 * (y 1).val = (y 1).val; omega
  · show win2_2.index t (0 : Fin 2) * 2000 + 1 * (j 0).val = _; omega
  · show win2_2.index t (1 : Fin 2) * 128 + 1 * (j 1).val = _; omega

/-- A row-and-column index of the output table is in point `t`'s block iff each coordinate is in the block's range on
    its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Every entry of the output table is written back by some grid point: row `r` by the point whose row block is
    `r / 2000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the call the output table is the product of the hidden table and the weight matrix as the call found them. -/
theorem final (c : Dev nD) :
    (dat2 (F := Ideal) V c).arrAt 2 cfg2.N = Cert.Spec.mm (V c main_v45) (V c main_arg3) :=
  (dat2 (F := Ideal) V c).arrAt_eq_of_cover 2 _ (fun t _ => flushed_eq V c t) (fun i => cover i)

end Cert.KernelIdeal.Reg2

end
-- ==== Proof.Reg3.lean ====
/-
  The fourth tiled call: the bias row added to every row of the 50000 × 128 table and the negative part cut off.
  The call works on 25 tiles of 2000 rows. At every tile the stored value at (p, q) is the tile's entry plus the bias
  of column q, or the f32 zero word if that is larger (`payload_apply`), which is the specification's formula at the
  table index the tile's (p, q) stands for (`payload_eq_spec`). The input tile and the output tile of a point have
  the same row block, the bias block is the whole bias row at every point (`index_facts`), so what a point writes
  back is its block of the specification's table (`flushed_eq`). Row r lies in the block of the point whose row-block
  index is r / 2000, so the 25 blocks cover the table (`cover`), and the table ends as the specification's (`final`).
-/
import proofs.«170341_j10453950399195_1_alg».proof.Proof.Gen.KernelIdeal.Frame
import proofs.«170341_j10453950399195_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-buffer access, as the constant function. -/
theorem zero_offsets : (![0, 0] : Fin 2 → Nat) = fun _ => 0 := funext fun a => by fin_cases a <;> rfl

/-- The bias row spread over the 2000 rows of a tile, read at row `p`, column `q`: the bias at column `q`. -/
theorem bias_row_apply (x1 : Vec Ideal S1x128 .f32) (h : S1x128.Broadcasts S2000x128) (p : Fin 2000) (q : Fin 128) :
    broadcastTo S2000x128 x1 h (ix2 p q) = x1 (ix2 0 q) :=
  broadcastTo_apply x1 h (ix2 p q) (ix2 0 q) fun a => by
    match a with
    | ⟨0, _⟩ => rfl
    | ⟨1, _⟩ => rfl

/-- What the body stores, read at row `p`, column `q` of the tile: the tile's entry plus the bias of that column,
    or the zero word if that is larger. -/
theorem payload_apply (x0 : Vec Ideal S2000x128 .f32) (x1 : Vec Ideal S1x128 .f32) (p : Fin 2000) (q : Fin 128) :
    k3_pay1 (F := Ideal) x0 x1 (ix2 p q)
      = max (x0 (ix2 p q) + x1 (ix2 0 q)) (Ideal.ofBits .f32 0x00000000#32) := by
  unfold k3_pay1
  rw [shapeCast_self, shapeCast_self]
  exact congrArg (fun z => max (x0 (ix2 p q) + z) (Ideal.ofBits .f32 0x00000000#32)) (bias_row_apply x1 _ p q)

/-- A tile `x0` that holds the table `a` at index `i` where the tile is read at `j`, with the same column, and a bias
    block `x1` that is the bias row `b`: the body's result at `j` is the specification's at `i`. -/
theorem payload_eq_spec (a : S50000x128.Idx → EReal) (b : S1x128.Idx → EReal)
    (x0 : Vec Ideal S2000x128 .f32) (x1 : Vec Ideal S1x128 .f32) (j : S2000x128.Idx) (i : S50000x128.Idx)
    (h0 : x0 j = a i) (h1 : ∀ q : Fin 128, x1 (ix2 0 q) = b (ix2 0 q)) (hi : (i 1).val = (j 1).val) :
    k3_pay1 (F := Ideal) x0 x1 j = Cert.Spec.biasRelu a b i := by
  obtain ⟨p, q, rfl⟩ : ∃ (p : Fin 2000) (q : Fin 128), j = ix2 p q := ⟨j 0, j 1, eq_ix2 j⟩
  have hq : i 1 = q := Fin.ext hi
  rw [payload_apply, h0, h1]
  unfold Cert.Spec.biasRelu
  rw [hq]

/-- The printed index maps over the 25 points: the input tile's row-block index is the output tile's and is at most 24;
    every column-block index, and both block indices of the bias, are 0. -/
theorem index_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 24
    ∧ win3_2.index t (1 : Fin 2) = 0 :=
  (by decide +kernel : ∀ t : Fin grid3.N, _)

/-- Every one of the 25 row blocks is some point's output block. -/
theorem index_onto : ∀ q : Fin 25, ∃ t : Fin cfg3.N, win3_2.index t = ![q.val, 0] :=
  (by decide +kernel : ∀ q : Fin 25, ∃ t : Fin grid3.N, win3_2.index t = ![q.val, 0])

/-- What point `t` writes back is its block of the specification's table of the arrays as the region finds them. -/
theorem flushed_eq (c : Dev nD) (t : Fin cfg3.N) :
    (dat3 (F := Ideal) V c).flushed 2 t
      = ((cfg3.win 2).blk t).view.read (Elt Ideal) (Cert.Spec.biasRelu (V c main_v59) (V c main_v60)) := by
  show (cfg3.win 2).cut (grid3.coords t) ((dat3 V c).after 2 t) = _
  rw [after3_2]
  unfold out3_2
  rw [View.canon_unit_zero zero_offsets]
  simp only [View.ld_unit_zero (S := S2000x128) zero_offsets, View.ld_unit_zero (S := S1x128) zero_offsets]
  obtain ⟨e0, e1, e2, e3, e4, e5⟩ := index_facts t
  funext j
  show k3_pay1 (F := Ideal) (iblk3 V c 0 t) (iblk3 V c 1 t) j
      = Cert.Spec.biasRelu (V c main_v59) (V c main_v60) (((cfg3.win 2).blk t).view.emb j)
  refine payload_eq_spec (V c main_v59) (V c main_v60) _ _ j _ ?_ ?_ ?_
  · -- the input tile is read where the output's rectangle says: same row block, column block 0
    show V c main_v59 (((cfg3.win 0).blk t).view.emb j) = V c main_v59 (((cfg3.win 2).blk t).view.emb j)
    refine congrArg (V c main_v59) (funext fun a => Fin.ext ?_)
    match a with
    | ⟨0, _⟩ =>
      show win3_0.index t (0 : Fin 2) * 2000 + 1 * (j 0).val = win3_2.index t (0 : Fin 2) * 2000 + 1 * (j 0).val
      omega
    | ⟨1, _⟩ =>
      show win3_0.index t (1 : Fin 2) * 128 + 1 * (j 1).val = win3_2.index t (1 : Fin 2) * 128 + 1 * (j 1).val
      omega
  · -- the bias block is the whole bias row: block index (0, 0)
    intro q
    show V c main_v60 (((cfg3.win 1).blk t).view.emb (ix2 0 q)) = V c main_v60 (ix2 0 q)
    refine congrArg (V c main_v60) (funext fun a => Fin.ext ?_)
    match a with
    | ⟨0, _⟩ =>
      show win3_1.index t (0 : Fin 2) * 1 + 1 * 0 = 0
      omega
    | ⟨1, _⟩ =>
      show win3_1.index t (1 : Fin 2) * 128 + 1 * q.val = q.val
      omega
  · -- the output block's column is the table's column
    show win3_2.index t (1 : Fin 2) * 128 + 1 * (j 1).val = (j 1).val
    omega

/-- An index of the table is in point `t`'s output block iff each coordinate is in the block's range on its axis. -/
theorem mem_block (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v61).slice (win3_2.rect t)).set ↔ _
  rw [View.set_slice_whole, Rect.mem_set_unit]
  exact Iff.rfl

/-- Row `r` of the table is in the block of the point whose row-block index is `r / 2000`: the 25 blocks cover the table. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 128 ≤ (i 1).val ∧ (i 1).val < win3_2.index t (1 : Fin 2) * 128 + 128
    omega

/-- The output table after the region is the specification's table of the two arrays the region reads. -/
theorem final (c : Dev nD) :
    (dat3 (F := Ideal) V c).arrAt 2 cfg3.N = Cert.Spec.biasRelu (V c main_v59) (V c main_v60) :=
  (dat3 V c).arrAt_eq_of_cover 2 (Cert.Spec.biasRelu (V c main_v59) (V c main_v60)) (fun t _ => flushed_eq V c t) cover

end Cert.KernelIdeal.Reg3

end
-- ==== Proof.Reg4.lean ====
import proofs.«170341_j10453950399195_1_alg».proof.Proof.Gen.KernelIdeal.Frame
import proofs.«170341_j10453950399195_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The tile's product at an index

The body multiplies a 2000 × 128 tile of the hidden table by the whole 128 × 2 weight matrix, contracting the tile's
second axis with the matrix's first. The tile is first recast to its own shape, which changes nothing; over the
extended reals the narrowing of both operands is the identity and the accumulator is the zero table, so entry
`(p, q)` of the result is `∑ k, tile (p, k) · weight (k, q)`. -/

/-- The left operand's row coordinate is the output's row. -/
theorem lhs_row (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
/-- The left operand's column coordinate is the summation index. -/
theorem lhs_col (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
/-- The right operand's row coordinate is the summation index. -/
theorem rhs_row (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
/-- The right operand's column coordinate is the output's column. -/
theorem rhs_col (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- Entry `(p, q)` of what the body stores: the sum over `k` of tile entry `(p, k)` times weight entry `(k, q)`. -/
theorem pay_apply (x0 : Vec Ideal S2000x128 .f32) (x1 : Vec Ideal S128x2 .f32) (p : Fin 2000) (q : Fin 2) :
    k4_pay1 (F := Ideal) x0 x1 (ix2 p q) = ∑ k : Fin 128, x0 (ix2 p k) * x1 (ix2 k q) := by
  unfold k4_pay1
  refine (Ideal.matmul_constant_zero_apply dot_S2000x128_S128x2_S2000x2_1_0_0_1_n_n none _ _ (ix2 p q)).trans ?_
  rw [← Equiv.sum_comp (ValueIdx.contrEquiv1 dot_S2000x128_S128x2_S2000x2_1_0_0_1_n_n 128 rfl rfl).symm]
  refine Finset.sum_congr rfl fun k _ => ?_
  have hk := ValueIdx.contrEquiv1_symm_val dot_S2000x128_S128x2_S2000x2_1_0_0_1_n_n 128 rfl rfl k
  have el : dot_S2000x128_S128x2_S2000x2_1_0_0_1_n_n.lhsIdx (ix2 p q) ((ValueIdx.contrEquiv1 dot_S2000x128_S128x2_S2000x2_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x2_S2000x2_1_0_0_1_n_n.rhsIdx (ix2 p q) ((ValueIdx.contrEquiv1 dot_S2000x128_S128x2_S2000x2_1_0_0_1_n_n 128 rfl rfl).symm k) = ix2 k q := funext fun a => Fin.ext (by
    match a with
    | ⟨0, _⟩ => exact (rhs_row _ _).trans hk
    | ⟨1, _⟩ => exact rhs_col _ _)
  show shapeCast S2000x128 x0 shapeCasts_S2000x128_S2000x128 _ * x1 _ = _
  rw [shapeCast_self, el, er]

/-- Spelled out at a row `i` of the table and a tile row `j` with `i = 2000·b + j`: when the left block is rows
    `2000·b … 2000·b + 1999` of the hidden table `a0` and the right block is the whole weight matrix `a1`, entry `j` of
    what the body stores is entry `i` of the product `a0 · a1`. -/
theorem point_apply (x0 : Vec Ideal S2000x128 .f32) (x1 : Vec Ideal S128x2 .f32)
    (a0 : S50000x128.Idx → EReal) (a1 : S128x2.Idx → EReal) (b : Nat)
    (h0 : ∀ (y : S2000x128.Idx) (i : S50000x128.Idx), (i 0).val = b * 2000 + (y 0).val → (i 1).val = (y 1).val → x0 y = a0 i)
    (h1 : x1 = a1)
    (j : S2000x2.Idx) (i : S50000x2.Idx) (hi0 : (i 0).val = b * 2000 + (j 0).val) (hi1 : (i 1).val = (j 1).val) :
    k4_pay1 (F := Ideal) x0 x1 j = Cert.Spec.mm a0 a1 i := by
  obtain ⟨p, q, rfl⟩ : ∃ (p : Fin 2000) (q : Fin 2), j = ix2 p q := ⟨j 0, j 1, eq_ix2 j⟩
  rw [pay_apply]
  show _ = ∑ k : Fin 128, a0 (ix2 (i 0) k) * a1 (ix2 k (i 1))
  refine Finset.sum_congr rfl fun k _ => ?_
  have el : x0 (ix2 p k) = a0 (ix2 (i 0) k) := h0 _ _ hi0 rfl
  have er : x1 (ix2 k q) = a1 (ix2 k (i 1)) := by
    rw [h1]
    refine congrArg a1 (funext fun a => Fin.ext ?_)
    match a with
    | ⟨0, _⟩ => rfl
    | ⟨1, _⟩ => exact hi1.symm
  rw [el, er]

/-! ## The printed index maps over the grid

Grid point `t` (of 25) takes the left table's and the output table's block number `t` along the rows and block 0 along
the columns, and always the one block of the weight matrix. -/

theorem hz : (![0, 0] : Fin 2 → Nat) = fun _ => 0 := funext fun a => by fin_cases a <;> rfl

/-- The left window's row block is the output window's, at most 24; every other block index is 0. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 24
    ∧ win4_2.index t (1 : Fin 2) = 0 :=
  (by decide +kernel : ∀ t : Fin grid4.N, _)

/-- Every one of the 25 row blocks of the output table is some grid point's. -/
theorem idx_onto : ∀ q : Fin 25, ∃ t : Fin cfg4.N, win4_2.index t = ![q.val, 0] :=
  (by decide +kernel : ∀ q : Fin 25, ∃ t : Fin grid4.N, win4_2.index t = ![q.val, 0])

/-! ## From the tiles to the table -/

/-- What grid point `t` writes back is block `t` of the product of the hidden table and the weight matrix as the call
    finds them. -/
theorem flushed_eq (c : Dev nD) (t : Fin cfg4.N) :
    (dat4 (F := Ideal) V c).flushed 2 t
      = ((cfg4.win 2).blk t).view.read (Elt Ideal) (Cert.Spec.mm (n := 50000) (k := 128) (d := 2) (V c main_v61) (V c main_arg5)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x2) hz]
  obtain ⟨e0, e1, e2, e3, e4, e5⟩ := idx_facts t
  funext j
  show k4_pay1 (F := Ideal) (iblk4 V c 0 t) (iblk4 V c 1 t) j
    = Cert.Spec.mm (n := 50000) (k := 128) (d := 2) (V c main_v61) (V c main_arg5) (((cfg4.win 2).blk t).view.emb j)
  refine point_apply _ _ _ _ (win4_2.index t (0 : Fin 2)) ?_ ?_ j _ ?_ ?_
  · intro y i hy0 hy1
    show V c main_v61 (((cfg4.win 0).blk t).view.emb y) = V c main_v61 i
    refine congrArg (V c main_v61) (funext fun a => Fin.ext ?_)
    match a with
    | ⟨0, _⟩ => show win4_0.index t (0 : Fin 2) * 2000 + 1 * (y 0).val = (i 0).val; omega
    | ⟨1, _⟩ => show win4_0.index t (1 : Fin 2) * 128 + 1 * (y 1).val = (i 1).val; omega
  · funext y
    show V c main_arg5 (((cfg4.win 1).blk t).view.emb y) = V c main_arg5 y
    refine congrArg (V c main_arg5) (funext fun a => Fin.ext ?_)
    match a with
    | ⟨0, _⟩ => show win4_1.index t (0 : Fin 2) * 128 + 1 * (y 0).val = (y 0).val; omega
    | ⟨1, _⟩ => show win4_1.index t (1 : Fin 2) * 2 + 1 * (y 1).val = (y 1).val; omega
  · show win4_2.index t (0 : Fin 2) * 2000 + 1 * (j 0).val = _; omega
  · show win4_2.index t (1 : Fin 2) * 2 + 1 * (j 1).val = _; omega

/-- A row-and-column index of the output table is in point `t`'s block iff each coordinate is in the block's range on
    its axis. -/
theorem mem_blk (t : Fin cfg4.N) (i : S50000x2.Idx) :
    i ∈ ((cfg4.win 2).blk t).view.set ↔ ∀ a : Fin 2, win4_2.index t a * S2000x2.size a ≤ (i a).val ∧ (i a).val < win4_2.index t a * S2000x2.size a + S2000x2.size a := by
  show i ∈ ((View.whole main_v62).slice (win4_2.rect t)).set ↔ _
  rw [View.set_slice_whole, Rect.mem_set_unit]
  exact Iff.rfl

/-- Every entry of the output table is written back by some grid point: row `r` by the point whose row block is
    `r / 2000`. -/
theorem cover (i : S50000x2.Idx) :
    ∃ t : Fin cfg4.N, (cfg4.win 2).flush t = true ∧ i ∈ ((cfg4.win 2).blk t).view.set := by
  have hi0 : (i 0).val < 50000 := (i 0).isLt
  have hi1 : (i 1).val < 2 := (i 1).isLt
  obtain ⟨t, ht⟩ := idx_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 2 ≤ (i 1).val ∧ (i 1).val < win4_2.index t (1 : Fin 2) * 2 + 2; omega

/-- After the call the output table is the product of the hidden table and the weight matrix as the call found them. -/
theorem final (c : Dev nD) :
    (dat4 (F := Ideal) V c).arrAt 2 cfg4.N = Cert.Spec.mm (V c main_v61) (V c main_arg5) :=
  (dat4 (F := Ideal) V c).arrAt_eq_of_cover 2 _ (fun t _ => flushed_eq V c t) (fun i => cover i)

end Cert.KernelIdeal.Reg4

end
-- ==== Proof.Reg5.lean ====
import proofs.«170341_j10453950399195_1_alg».proof.Proof.Gen.KernelIdeal.Frame
import proofs.«170341_j10453950399195_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg5

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! # The last tiled call: bias row, then a row-wise log-softmax

The call walks the 50000 × 2 table in 25 blocks of 2000 rows. At each block it adds the 1 × 2 bias row to every row,
takes each row's maximum `M` and returns `(h − M) − log (∑ exp (h − M))` entry by entry. Each row's result depends on that
row alone, so the table the 25 write-backs leave is the same function of the whole input table, row by row.

First the body's arithmetic is read at an index `(p, q)` of a block; then a block of rows of the table is placed in the table;
then the 25 blocks are shown to cover the table. -/

/-! ## Two layout readings the row-wise reductions need -/

section Layout
variable {α : Type}

/-- A length-`a` vector viewed as an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a length-`a` vector made a column and broadcast along the rows reads, at `(p, c)`, the vector at `p`. -/
theorem column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Layout

/-! ## The body's arithmetic at an index -/

/-- The index a reduction over the columns inserts at row `p`, column `k`, is `(p, k)`. -/
theorem lift_row (hr : S2000x2.Reduces [1] S2000) (p : Fin 2000) (k : Fin 2) : hr.lift (ix1 p) k = ix2 p k := by
  funext a; apply Fin.ext
  match a with
  | ⟨0, _⟩ => rfl
  | ⟨1, _⟩ => rfl

/-- The maximum over the columns, from the word of `-∞`, is the specification's row maximum of the row. -/
theorem rowMax_read (H : FVec Ideal S2000x2 .f32) (hr : S2000x2.Reduces [1] S2000) (hφ : FKind.Formats .f32)
    (hacc : (0xFF800000#32 : BitVec 32) = FKind.maximumf.neutral .f32 hφ) (p : Fin 2000) :
    multiReduction (F := Ideal) .maximumf [1] S2000 H 0xFF800000#32 hr hφ hacc (ix1 p)
      = Cert.Spec.rowMax (fun j : Fin 2 => H (ix2 p j)) := by
  refine (Ideal.multiReduction_maximumf_single H _ hr hφ hacc (ix1 p)).trans ?_
  show (Finset.univ : Finset (Fin 2)).fold max (Ideal.ofBits .f32 0xFF800000#32) (fun k => H (hr.lift (ix1 p) k)) = _
  unfold Cert.Spec.rowMax
  exact congrArg (fun f => (Finset.univ : Finset (Fin 2)).fold max (Ideal.ofBits .f32 0xFF800000#32) f)
    (funext fun k => congrArg H (lift_row hr p k))

/-- The sum over the columns, from the zero word, is the sum of the row's two entries. -/
theorem rowSum_read (E : FVec Ideal S2000x2 .f32) (hr : S2000x2.Reduces [1] S2000) (hφ : FKind.Formats .f32)
    (hacc : (0x00000000#32 : BitVec 32) = FKind.add.neutral .f32 hφ) (p : Fin 2000) :
    multiReduction (F := Ideal) .add [1] S2000 E 0x00000000#32 hr hφ hacc (ix1 p) = ∑ j : Fin 2, E (ix2 p j) := by
  refine (Ideal.multiReduction_add_single E _ hr hφ hacc (ix1 p)).trans ?_
  show ∑ k : Fin 2, E (hr.lift (ix1 p) k) = _
  exact Finset.sum_congr rfl fun k _ => congrArg E (lift_row hr p k)

/-- The row of the input block plus the bias row: the specification's logits of row `p`. -/
theorem logits_read (x0 : FVec Ideal S2000x2 .f32) (x1 : FVec Ideal S1x2 .f32)
    (h00 : S2000x2.ShapeCasts S2000x2) (h11 : S1x2.ShapeCasts S1x2) (hb : S1x2.Broadcasts S2000x2) (p : Fin 2000) (j : Fin 2) :
    addf (shapeCast S2000x2 x0 h00) (broadcastTo S2000x2 (shapeCast S1x2 x1 h11) hb) (ix2 p j) = Cert.Spec.logits x0 x1 p j := by
  rw [shapeCast_self, shapeCast_self]
  exact congrArg (x0 (ix2 p j) + ·) (broadcastTo_1b_ab_apply x1 hb p j)

/-- The log-softmax the body takes of a block `H` whose row `p` is `L`: at `(p, q)` it is
    `(L q − M) − log (∑ j, exp (L j − M))`, `M` the row's maximum. -/
theorem lsm_read (H : FVec Ideal S2000x2 .f32) (hr : S2000x2.Reduces [1] S2000) (hc : S2000.ShapeCasts S2000x1)
    (hbc : S2000x1.Broadcasts S2000x2) (hφ : FKind.Formats .f32)
    (hmax : (0xFF800000#32 : BitVec 32) = FKind.maximumf.neutral .f32 hφ)
    (hadd : (0x00000000#32 : BitVec 32) = FKind.add.neutral .f32 hφ)
    (p : Fin 2000) (q : Fin 2) (L : Fin 2 → EReal) (hL : ∀ j, H (ix2 p j) = L j) :
    subf (subf H (broadcastTo S2000x2 (shapeCast S2000x1 (multiReduction (F := Ideal) .maximumf [1] S2000 H 0xFF800000#32 hr hφ hmax) hc) hbc))
      (broadcastTo S2000x2 (log (shapeCast S2000x1 (multiReduction (F := Ideal) .add [1] S2000
        (exp (subf H (broadcastTo S2000x2 (shapeCast S2000x1 (multiReduction (F := Ideal) .maximumf [1] S2000 H 0xFF800000#32 hr hφ hmax) hc) hbc)))
        0x00000000#32 hr hφ hadd) hc)) hbc) (ix2 p q)
    = (L q - Cert.Spec.rowMax L) - Ideal.log (∑ j : Fin 2, Ideal.exp (L j - Cert.Spec.rowMax L)) := by
  have hrow : (fun j : Fin 2 => H (ix2 p j)) = L := funext hL
  have hM : ∀ c : Fin 2, broadcastTo S2000x2 (shapeCast S2000x1 (multiReduction (F := Ideal) .maximumf [1] S2000 H 0xFF800000#32 hr hφ hmax) hc) hbc (ix2 p c)
      = Cert.Spec.rowMax L := fun c =>
    ((column_apply _ hc hbc p c).trans (rowMax_read H hr hφ hmax p)).trans (congrArg Cert.Spec.rowMax hrow)
  have hS : broadcastTo S2000x2 (log (shapeCast S2000x1 (multiReduction (F := Ideal) .add [1] S2000
        (exp (subf H (broadcastTo S2000x2 (shapeCast S2000x1 (multiReduction (F := Ideal) .maximumf [1] S2000 H 0xFF800000#32 hr hφ hmax) hc) hbc)))
        0x00000000#32 hr hφ hadd) hc)) hbc (ix2 p q)
      = Ideal.log (∑ j : Fin 2, Ideal.exp (L j - Cert.Spec.rowMax L)) := by
    refine (broadcastTo_a1_ab_apply _ hbc p q).trans ?_
    show Ideal.log (shapeCast S2000x1 _ hc (ix2 p (0 : Fin 1))) = _
    refine congrArg Ideal.log ?_
    refine (shapeCast_a_a1_apply _ hc p 0).trans ?_
    refine (rowSum_read _ hr hφ hadd p).trans ?_
    refine Finset.sum_congr rfl fun j _ => ?_
    show Ideal.exp (H (ix2 p j) - broadcastTo S2000x2 _ hbc (ix2 p j)) = _
    rw [hM j, hL j]
  show (H (ix2 p q) - broadcastTo S2000x2 _ hbc (ix2 p q)) - broadcastTo S2000x2 _ hbc (ix2 p q) = _
  rw [hM q, hS, hL q]

/-- THE BODY'S PAYLOAD of an input block `x0` and the bias block `x1` is the specification's log-softmax of the block's
    rows plus the bias row. -/
theorem pay_apply (x0 : Vec Ideal S2000x2 .f32) (x1 : Vec Ideal S1x2 .f32) (p : Fin 2000) (q : Fin 2) :
    k5_pay1 (F := Ideal) x0 x1 (ix2 p q) = Cert.Spec.biasLsm x0 x1 (ix2 p q) := by
  unfold k5_pay1
  exact lsm_read _ _ _ _ _ _ _ p q (Cert.Spec.logits x0 x1 p) (fun j => logits_read x0 x1 _ _ _ p j)

/-- The same, as an equation of whole blocks. -/
theorem pay_eq (x0 : Vec Ideal S2000x2 .f32) (x1 : Vec Ideal S1x2 .f32) :
    k5_pay1 (F := Ideal) x0 x1 = Cert.Spec.biasLsm x0 x1 := by
  funext j
  obtain ⟨p, q, rfl⟩ : ∃ (p : Fin 2000) (q : Fin 2), j = ix2 p q := ⟨j 0, j 1, eq_ix2 j⟩
  exact pay_apply x0 x1 p q

/-! ## A block of rows of the table: row independence -/

/-- The log-softmax of a row depends on the row's logits only: two tables (of any heights) whose rows `r` and `r'`
    have the same logits have the same log-softmax there. -/
theorem biasLsm_row {n n' d : ℕ} (a : (⟨2, ![n, d]⟩ : Shape).Idx → EReal) (a' : (⟨2, ![n', d]⟩ : Shape).Idx → EReal)
    (b b' : (⟨2, ![1, d]⟩ : Shape).Idx → EReal) (r : Fin n) (r' : Fin n') (q : Fin d)
    (h : Cert.Spec.logits a b r = Cert.Spec.logits a' b' r') :
    Cert.Spec.biasLsm a b (ix2 r q) = Cert.Spec.biasLsm a' b' (ix2 r' q) := by
  show (Cert.Spec.logits a b r q - Cert.Spec.rowMax (Cert.Spec.logits a b r))
      - Ideal.log (∑ j : Fin d, Ideal.exp (Cert.Spec.logits a b r j - Cert.Spec.rowMax (Cert.Spec.logits a b r)))
    = (Cert.Spec.logits a' b' r' q - Cert.Spec.rowMax (Cert.Spec.logits a' b' r'))
      - Ideal.log (∑ j : Fin d, Ideal.exp (Cert.Spec.logits a' b' r' j - Cert.Spec.rowMax (Cert.Spec.logits a' b' r')))
  rw [h]

/-- THE PAYLOAD OF BLOCK `k`: when the input block `x0` is rows `2000·k … 2000·k + 1999` of the table `A` (`e` places the
    block's indices in the table) and the bias block `x1` is the bias row `B`, the body's payload is the same rows of the
    log-softmax of the whole table. -/
theorem pay_block (x0 : Vec Ideal S2000x2 .f32) (x1 : Vec Ideal S1x2 .f32)
    (A : S50000x2.Idx → EReal) (B : S1x2.Idx → EReal) (e : S2000x2.Idx → S50000x2.Idx) (k : ℕ) (hk : k ≤ 24)
    (he0 : ∀ y : S2000x2.Idx, (e y 0).val = k * 2000 + (y 0).val) (he1 : ∀ y : S2000x2.Idx, (e y 1).val = (y 1).val)
    (h0 : ∀ y : S2000x2.Idx, x0 y = A (e y)) (h1 : ∀ y : S1x2.Idx, x1 y = B y) :
    k5_pay1 (F := Ideal) x0 x1 = fun y => Cert.Spec.biasLsm A B (e y) := by
  funext j
  obtain ⟨p, q, rfl⟩ : ∃ (p : Fin 2000) (q : Fin 2), j = ix2 p q := ⟨j 0, j 1, eq_ix2 j⟩
  have hp : k * 2000 + p.val < 50000 := by have := p.isLt; omega
  have hE : ∀ c : Fin 2, e (ix2 p c) = ix2 (⟨k * 2000 + p.val, hp⟩ : Fin 50000) c := fun c =>
    Shape.idx_ext₂ (he0 (ix2 p c)) (he1 (ix2 p c))
  refine (pay_apply x0 x1 p q).trans ?_
  show _ = Cert.Spec.biasLsm A B (e (ix2 p q))
  rw [hE q]
  refine biasLsm_row x0 A x1 B p _ q (funext fun c => ?_)
  show x0 (ix2 p c) + x1 (ix2 0 c) = A (ix2 (⟨k * 2000 + p.val, hp⟩ : Fin 50000) c) + B (ix2 0 c)
  rw [h0, h1, hE c]

/-! ## From the blocks to the table -/

theorem zero_offsets : (![0, 0] : Fin 2 → Nat) = fun _ => 0 := funext fun a => by fin_cases a <;> rfl

/-- The printed index maps, decided over the 25 grid points: the input table's block moves with the output's along the rows,
    which stays within the 25 row blocks; every other block index is 0 (the bias row's one block, the one column block). -/
theorem blockIndex_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) ≤ 24
    ∧ win5_2.index t (1 : Fin 2) = 0 :=
  (by decide +kernel : ∀ t : Fin grid5.N, _)

/-- Every one of the 25 row blocks is SOME grid point's. -/
theorem blockIndex_onto : ∀ q : Fin 25, ∃ t : Fin cfg5.N, win5_2.index t = ![q.val, 0] :=
  (by decide +kernel : ∀ q : Fin 25, ∃ t : Fin grid5.N, win5_2.index t = ![q.val, 0])

/-- WHAT POINT `t` WRITES BACK is block `t` of the log-softmax of the whole table's rows plus the bias row. -/
theorem flushed_eq (c : Dev nD) (t : Fin cfg5.N) :
    (dat5 (F := Ideal) V c).flushed 2 t
      = ((cfg5.win 2).blk t).view.read (Elt Ideal) (Cert.Spec.biasLsm (V c main_v75) (V c main_v76)) := by
  show (cfg5.win 2).cut (grid5.coords t) ((dat5 V c).after 2 t) = _
  rw [after5_2]
  unfold out5_2
  rw [View.canon_unit_zero zero_offsets]
  simp only [View.ld_unit_zero (S := S2000x2) zero_offsets, View.ld_unit_zero (S := S1x2) zero_offsets]
  obtain ⟨e0, e1, e2, e3, e4, e5⟩ := blockIndex_facts t
  refine pay_block (iblk5 V c 0 t) (iblk5 V c 1 t) (V c main_v75) (V c main_v76)
    (fun y => ((cfg5.win 2).blk t).view.emb y) (win5_2.index t (0 : Fin 2)) e4 (fun y => ?_) (fun y => ?_) (fun y => ?_) (fun y => ?_)
  · show win5_2.index t (0 : Fin 2) * 2000 + 1 * (y 0).val = _
    omega
  · show win5_2.index t (1 : Fin 2) * 2 + 1 * (y 1).val = _
    omega
  · show V c main_v75 (((cfg5.win 0).blk t).view.emb y) = V c main_v75 (((cfg5.win 2).blk t).view.emb y)
    refine congrArg (V c main_v75) (funext fun a => Fin.ext ?_)
    match a with
    | ⟨0, _⟩ =>
      show win5_0.index t (0 : Fin 2) * 2000 + 1 * (y 0).val = win5_2.index t (0 : Fin 2) * 2000 + 1 * (y 0).val
      rw [e0]
    | ⟨1, _⟩ =>
      show win5_0.index t (1 : Fin 2) * 2 + 1 * (y 1).val = win5_2.index t (1 : Fin 2) * 2 + 1 * (y 1).val
      rw [e1, e5]
  · show V c main_v76 (((cfg5.win 1).blk t).view.emb y) = V c main_v76 y
    refine congrArg (V c main_v76) (funext fun a => Fin.ext ?_)
    match a with
    | ⟨0, _⟩ =>
      show win5_1.index t (0 : Fin 2) * 1 + 1 * (y 0).val = (y 0).val
      omega
    | ⟨1, _⟩ =>
      show win5_1.index t (1 : Fin 2) * 2 + 1 * (y 1).val = (y 1).val
      omega

/-- An index of the table is in point `t`'s block iff each coordinate is in the block's range on its axis. -/
theorem mem_blk (t : Fin cfg5.N) (i : S50000x2.Idx) :
    i ∈ ((cfg5.win 2).blk t).view.set ↔ ∀ a : Fin 2, win5_2.index t a * S2000x2.size a ≤ (i a).val
      ∧ (i a).val < win5_2.index t a * S2000x2.size a + S2000x2.size a := by
  show i ∈ ((View.whole main_v77).slice (win5_2.rect t)).set ↔ _
  rw [View.set_slice_whole, Rect.mem_set_unit]
  exact Iff.rfl

/-- THE BLOCKS COVER THE TABLE: row `r` is in the block of the point whose block index is `r / 2000`. -/
theorem cover (i : S50000x2.Idx) :
    ∃ t : Fin cfg5.N, (cfg5.win 2).flush t = true ∧ i ∈ ((cfg5.win 2).blk t).view.set := by
  have hi0 : (i 0).val < 50000 := (i 0).isLt
  have hi1 : (i 1).val < 2 := (i 1).isLt
  obtain ⟨t, ht⟩ := blockIndex_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk]
  intro a
  match a with
  | ⟨0, _⟩ =>
    show win5_2.index t (0 : Fin 2) * 2000 ≤ (i 0).val ∧ (i 0).val < win5_2.index t (0 : Fin 2) * 2000 + 2000
    omega
  | ⟨1, _⟩ =>
    show win5_2.index t (1 : Fin 2) * 2 ≤ (i 1).val ∧ (i 1).val < win5_2.index t (1 : Fin 2) * 2 + 2
    omega

/-- THE TABLE after the region: the log-softmax of every row of the input table plus the bias row. -/
theorem final (c : Dev nD) :
    (dat5 (F := Ideal) V c).arrAt 2 cfg5.N = Cert.Spec.biasLsm (V c main_v75) (V c main_v76) :=
  (dat5 (F := Ideal) V c).arrAt_eq_of_cover 2 (Cert.Spec.biasLsm (V c main_v75) (V c main_v76))
    (fun t _ => flushed_eq V c t) cover

end Cert.KernelIdeal.Reg5

end
-- ==== Proof.Forward.lean ====
/-
  The kernel program's result array is the forward pass of the arrays it was launched with.
  The program is walked once from the launch to the return. After the graph part the sources, targets and edge
  weights are the named functions of the edge list, and they are still there when each layer reads them. A
  product call leaves the matrix product of the table it finds and of the layer's weight matrix; the host stretch
  after it leaves the neighbourhood sums of that product and the bias vector as a one-row table; the next call adds the
  bias and applies the layer's row-wise function. Composing the three layers gives `Chain.forward` of the eight
  arguments, and the launch theorem's run ends with the result array at that value and the arguments unchanged.
-/
import proofs.«170341_j10453950399195_1_alg».proof.Proof.Whole
import proofs.«170341_j10453950399195_1_alg».proof.Proof.Kept
import proofs.«170341_j10453950399195_1_alg».proof.Proof.Stretch
import proofs.«170341_j10453950399195_1_alg».proof.Proof.Reg0
import proofs.«170341_j10453950399195_1_alg».proof.Proof.Reg1
import proofs.«170341_j10453950399195_1_alg».proof.Proof.Reg2
import proofs.«170341_j10453950399195_1_alg».proof.Proof.Reg3
import proofs.«170341_j10453950399195_1_alg».proof.Proof.Reg4
import proofs.«170341_j10453950399195_1_alg».proof.Proof.Reg5

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Picks, from a list of alternatives "this array is that one", the alternative that holds by reflexivity. -/
syntax "pick_array" : tactic
macro_rules
  | `(tactic| pick_array) => `(tactic| first | exact Or.inl rfl | (refine Or.inr ?_; pick_array) | rfl)

/-! ## The graph arrays at the three places they are read -/

theorem src_W4 (c : Dev nD) : W4 m ρ c (Proc.devRef .tc main_v3) = Chain.src (F := Ideal) (m ((c : Thread nD τ).loc main_arg7)) :=
  (Kept.W4_W3 m ρ c main_v3 (by pick_array)).trans (Stretch.W3_src m ρ c)
theorem dst_W4 (c : Dev nD) : W4 m ρ c (Proc.devRef .tc main_v6) = Chain.dst (F := Ideal) (m ((c : Thread nD τ).loc main_arg7)) :=
  (Kept.W4_W3 m ρ c main_v6 (by pick_array)).trans (Stretch.W3_dst m ρ c)
theorem norm_W4 (c : Dev nD) : W4 m ρ c (Proc.devRef .tc main_v29) = Chain.norm (F := Ideal) (m ((c : Thread nD τ).loc main_arg7)) :=
  (Kept.W4_W3 m ρ c main_v29 (by pick_array)).trans (Stretch.W3_norm m ρ c)

theorem src_W7 (c : Dev nD) : W7 m ρ c (Proc.devRef .tc main_v3) = Chain.src (F := Ideal) (m ((c : Thread nD τ).loc main_arg7)) :=
  (Kept.W7_W6 m ρ c main_v3 (by pick_array)).trans ((Kept.W6_W4 m ρ c main_v3 (by pick_array)).trans (src_W4 m ρ c))
theorem dst_W7 (c : Dev nD) : W7 m ρ c (Proc.devRef .tc main_v6) = Chain.dst (F := Ideal) (m ((c : Thread nD τ).loc main_arg7)) :=
  (Kept.W7_W6 m ρ c main_v6 (by pick_array)).trans ((Kept.W6_W4 m ρ c main_v6 (by pick_array)).trans (dst_W4 m ρ c))
theorem norm_W7 (c : Dev nD) : W7 m ρ c (Proc.devRef .tc main_v29) = Chain.norm (F := Ideal) (m ((c : Thread nD τ).loc main_arg7)) :=
  (Kept.W7_W6 m ρ c main_v29 (by pick_array)).trans ((Kept.W6_W4 m ρ c main_v29 (by pick_array)).trans (norm_W4 m ρ c))

theorem src_W10 (c : Dev nD) : W10 m ρ c (Proc.devRef .tc main_v3) = Chain.src (F := Ideal) (m ((c : Thread nD τ).loc main_arg7)) :=
  (Kept.W10_W9 m ρ c main_v3 (by pick_array)).trans ((Kept.W9_W7 m ρ c main_v3 (by pick_array)).trans (src_W7 m ρ c))
theorem dst_W10 (c : Dev nD) : W10 m ρ c (Proc.devRef .tc main_v6) = Chain.dst (F := Ideal) (m ((c : Thread nD τ).loc main_arg7)) :=
  (Kept.W10_W9 m ρ c main_v6 (by pick_array)).trans ((Kept.W9_W7 m ρ c main_v6 (by pick_array)).trans (dst_W7 m ρ c))
theorem norm_W10 (c : Dev nD) : W10 m ρ c (Proc.devRef .tc main_v29) = Chain.norm (F := Ideal) (m ((c : Thread nD τ).loc main_arg7)) :=
  (Kept.W10_W9 m ρ c main_v29 (by pick_array)).trans ((Kept.W9_W7 m ρ c main_v29 (by pick_array)).trans (norm_W7 m ρ c))

/-! ## The layers' parameters where they are read -/

theorem b1_W4 (c : Dev nD) : W4 m ρ c (Proc.devRef .tc main_arg2) = (m ((c : Thread nD τ).loc main_arg2)) :=
  (Kept.W4_W3 m ρ c main_arg2 (by pick_array)).trans (Kept.W3_launch m ρ c main_arg2 (by pick_array))
theorem w2_W6 (c : Dev nD) : W6 m ρ c (Proc.devRef .tc main_arg3) = (m ((c : Thread nD τ).loc main_arg3)) :=
  (Kept.W6_W4 m ρ c main_arg3 (by pick_array)).trans ((Kept.W4_W3 m ρ c main_arg3 (by pick_array)).trans (Kept.W3_launch m ρ c main_arg3 (by pick_array)))
theorem b2_W7 (c : Dev nD) : W7 m ρ c (Proc.devRef .tc main_arg4) = (m ((c : Thread nD τ).loc main_arg4)) :=
  (Kept.W7_W6 m ρ c main_arg4 (by pick_array)).trans ((Kept.W6_W4 m ρ c main_arg4 (by pick_array)).trans
    ((Kept.W4_W3 m ρ c main_arg4 (by pick_array)).trans (Kept.W3_launch m ρ c main_arg4 (by pick_array))))
theorem w3_W9 (c : Dev nD) : W9 m ρ c (Proc.devRef .tc main_arg5) = (m ((c : Thread nD τ).loc main_arg5)) :=
  (Kept.W9_W7 m ρ c main_arg5 (by pick_array)).trans ((Kept.W7_W6 m ρ c main_arg5 (by pick_array)).trans
    ((Kept.W6_W4 m ρ c main_arg5 (by pick_array)).trans
      ((Kept.W4_W3 m ρ c main_arg5 (by pick_array)).trans (Kept.W3_launch m ρ c main_arg5 (by pick_array)))))
theorem b3_W10 (c : Dev nD) : W10 m ρ c (Proc.devRef .tc main_arg6) = (m ((c : Thread nD τ).loc main_arg6)) :=
  (Kept.W10_W9 m ρ c main_arg6 (by pick_array)).trans ((Kept.W9_W7 m ρ c main_arg6 (by pick_array)).trans
    ((Kept.W7_W6 m ρ c main_arg6 (by pick_array)).trans ((Kept.W6_W4 m ρ c main_arg6 (by pick_array)).trans
      ((Kept.W4_W3 m ρ c main_arg6 (by pick_array)).trans (Kept.W3_launch m ρ c main_arg6 (by pick_array))))))

/-! ## Layer 1 -/

/-- The first product call leaves `x · W1`. -/
theorem prod1 (c : Dev nD) :
    W4 m ρ c (Proc.devRef .tc main_v30) = Cert.Spec.mm (m ((c : Thread nD τ).loc main_arg0)) (m ((c : Thread nD τ).loc main_arg1)) := by
  have h := Reg0.final (V3 m ρ) c
  rw [show V3 m ρ c main_arg0 = (m ((c : Thread nD τ).loc main_arg0)) from Kept.W3_launch m ρ c main_arg0 (by pick_array),
    show V3 m ρ c main_arg1 = (m ((c : Thread nD τ).loc main_arg1)) from Kept.W3_launch m ρ c main_arg1 (by pick_array)] at h
  exact (W4_arr m ρ c 2).trans h

/-- The stretch after it leaves the neighbourhood sums of that product. -/
theorem sums1 (c : Dev nD) :
    W5 m ρ c (Proc.devRef .tc main_v43)
      = Chain.agg256 (F := Ideal) (Cert.Spec.mm (m ((c : Thread nD τ).loc main_arg0)) (m ((c : Thread nD τ).loc main_arg1)))
          (Chain.src (F := Ideal) (m ((c : Thread nD τ).loc main_arg7))) (Chain.dst (F := Ideal) (m ((c : Thread nD τ).loc main_arg7))) (Chain.norm (F := Ideal) (m ((c : Thread nD τ).loc main_arg7))) := by
  rw [Stretch.W5_agg m ρ c, prod1 m ρ c, src_W4 m ρ c, dst_W4 m ρ c, norm_W4 m ρ c]

/-- … and the first bias as a one-row table. -/
theorem bias1 (c : Dev nD) :
    W5 m ρ c (Proc.devRef .tc main_v44) = Chain.rowOf256 (F := Ideal) (m ((c : Thread nD τ).loc main_arg2)) := by
  rw [Stretch.W5_row m ρ c, b1_W4 m ρ c]

/-- The second call leaves the first layer's table. -/
theorem table1 (c : Dev nD) :
    W6 m ρ c (Proc.devRef .tc main_v45)
      = Chain.layer1 (m ((c : Thread nD τ).loc main_arg0)) (m ((c : Thread nD τ).loc main_arg1)) (m ((c : Thread nD τ).loc main_arg2)) (m ((c : Thread nD τ).loc main_arg7)) := by
  have h := Reg1.final (V5 m ρ) c
  rw [show V5 m ρ c main_v43 = _ from sums1 m ρ c, show V5 m ρ c main_v44 = _ from bias1 m ρ c] at h
  exact (W6_arr m ρ c 2).trans h

/-! ## Layer 2 -/

theorem prod2 (c : Dev nD) :
    W7 m ρ c (Proc.devRef .tc main_v46)
      = Cert.Spec.mm (Chain.layer1 (m ((c : Thread nD τ).loc main_arg0)) (m ((c : Thread nD τ).loc main_arg1)) (m ((c : Thread nD τ).loc main_arg2)) (m ((c : Thread nD τ).loc main_arg7))) (m ((c : Thread nD τ).loc main_arg3)) := by
  have h := Reg2.final (V6 m ρ) c
  rw [show V6 m ρ c main_v45 = _ from table1 m ρ c, show V6 m ρ c main_arg3 = _ from w2_W6 m ρ c] at h
  exact (W7_arr m ρ c 2).trans h

theorem sums2 (c : Dev nD) :
    W8 m ρ c (Proc.devRef .tc main_v59)
      = Chain.agg128 (F := Ideal) (Cert.Spec.mm (Chain.layer1 (m ((c : Thread nD τ).loc main_arg0)) (m ((c : Thread nD τ).loc main_arg1)) (m ((c : Thread nD τ).loc main_arg2)) (m ((c : Thread nD τ).loc main_arg7))) (m ((c : Thread nD τ).loc main_arg3)))
          (Chain.src (F := Ideal) (m ((c : Thread nD τ).loc main_arg7))) (Chain.dst (F := Ideal) (m ((c : Thread nD τ).loc main_arg7))) (Chain.norm (F := Ideal) (m ((c : Thread nD τ).loc main_arg7))) := by
  rw [Stretch.W8_agg m ρ c, prod2 m ρ c, src_W7 m ρ c, dst_W7 m ρ c, norm_W7 m ρ c]

theorem bias2 (c : Dev nD) :
    W8 m ρ c (Proc.devRef .tc main_v60) = Chain.rowOf128 (F := Ideal) (m ((c : Thread nD τ).loc main_arg4)) := by
  rw [Stretch.W8_row m ρ c, b2_W7 m ρ c]

theorem table2 (c : Dev nD) :
    W9 m ρ c (Proc.devRef .tc main_v61)
      = Chain.layer2 (Chain.layer1 (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7)) := by
  have h := Reg3.final (V8 m ρ) c
  rw [show V8 m ρ c main_v59 = _ from sums2 m ρ c, show V8 m ρ c main_v60 = _ from bias2 m ρ c] at h
  exact (W9_arr m ρ c 2).trans h

/-! ## Layer 3 -/

theorem prod3 (c : Dev nD) :
    W10 m ρ c (Proc.devRef .tc main_v62)
      = Cert.Spec.mm (Chain.layer2 (Chain.layer1 (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7))) (m ((c : Thread nD τ).loc main_arg5)) := by
  have h := Reg4.final (V9 m ρ) c
  rw [show V9 m ρ c main_v61 = _ from table2 m ρ c, show V9 m ρ c main_arg5 = _ from w3_W9 m ρ c] at h
  exact (W10_arr m ρ c 2).trans h

theorem sums3 (c : Dev nD) :
    W11 m ρ c (Proc.devRef .tc main_v75)
      = Chain.agg2 (F := Ideal) (Cert.Spec.mm (Chain.layer2 (Chain.layer1 (m ((c : Thread nD τ).loc main_arg0)) (m ((c : Thread nD τ).loc main_arg1)) (m ((c : Thread nD τ).loc main_arg2)) (m ((c : Thread nD τ).loc main_arg7))) (m ((c : Thread nD τ).loc main_arg3)) (m ((c : Thread nD τ).loc main_arg4)) (m ((c : Thread nD τ).loc main_arg7))) (m ((c : Thread nD τ).loc main_arg5)))
          (Chain.src (F := Ideal) (m ((c : Thread nD τ).loc main_arg7))) (Chain.dst (F := Ideal) (m ((c : Thread nD τ).loc main_arg7))) (Chain.norm (F := Ideal) (m ((c : Thread nD τ).loc main_arg7))) := by
  rw [Stretch.W11_agg m ρ c, prod3 m ρ c, src_W10 m ρ c, dst_W10 m ρ c, norm_W10 m ρ c]

theorem bias3 (c : Dev nD) :
    W11 m ρ c (Proc.devRef .tc main_v76) = Chain.rowOf2 (F := Ideal) (m ((c : Thread nD τ).loc main_arg6)) := by
  rw [Stretch.W11_row m ρ c, b3_W10 m ρ c]

/-- The last call leaves the forward pass of the launch contents in the result array. -/
theorem result (c : Dev nD) :
    W12 m ρ c (Proc.devRef .tc main_v77)
      = Chain.forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := Reg5.final (V11 m ρ) c
  rw [show V11 m ρ c main_v75 = _ from sums3 m ρ c, show V11 m ρ c main_v76 = _ from bias3 m ρ c] at h
  exact (W12_arr m ρ c 2).trans h

/-! ## The run -/

/-- Every weakly fair execution ends with the result array at the forward pass of the launch contents and the
    arguments unchanged. -/
theorem run_forward : θ_run defs (onTc (τ := τ) (main (F := Ideal))) ⟨m, fun _ => 0, ρ⟩ (fun r => ∀ c : Dev nD,
      r.2.mem ((c.tc : Thread nD τ).loc main_v77)
        = Chain.forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (run m ρ)

end Cert.KernelIdeal.Whole

end
-- ==== Proof.BridgeOps.lean ====
/-
  The reference's three linear layers, and its two bias-and-cut-off steps, each read as
  the row-wise function of `Spec`: a `dot_general` over one contracted axis is the matrix product; adding the
  bias vector broadcast along the rows and taking the maximum with a table of zeros is `biasRelu` of the bias
  seen as a table of one row.
-/
import proofs.«170341_j10453950399195_1_alg».proof.Proof.ReadP
import proofs.«170341_j10453950399195_1_alg».proof.Proof.Final
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.ReferenceIdeal Cert.ReferenceIdeal.Gen Idealize.ShloMosaic Idealize.ShloMosaic.TcCoe Idealize.ShloMosaic.ValueIdx
open Cert.ReferenceIdeal.ReadP

/-! ## The two operation kinds, over variables for the operand tables -/

/-- A table `v` whose entry at `i` is `∑ q, x (l i q) · w (r i q)`, where `l i q` is the index `(i 0, q)` and
    `r i q` the index `(q, i 1)`, is the matrix product of `x` and `w`. -/
theorem mm_of_sum {n k d : Nat} (x : (⟨2, ![n, k]⟩ : Shape).Idx → EReal) (w : (⟨2, ![k, d]⟩ : Shape).Idx → EReal)
    (v : (⟨2, ![n, d]⟩ : Shape).Idx → EReal)
    (l : (⟨2, ![n, d]⟩ : Shape).Idx → Fin k → (⟨2, ![n, k]⟩ : Shape).Idx)
    (r : (⟨2, ![n, d]⟩ : Shape).Idx → Fin k → (⟨2, ![k, d]⟩ : Shape).Idx)
    (hl : ∀ i q, l i q = ix2 (i 0) q) (hr : ∀ i q, r i q = ix2 q (i 1))
    (hv : ∀ i, v i = ∑ q : Fin k, x (l i q) * w (r i q)) : v = Cert.Spec.mm x w := by
  funext i
  rw [hv i]
  exact Finset.sum_congr rfl fun q _ => congrArg₂ (· * ·) (congrArg x (hl i q)) (congrArg w (hr i q))

/-- A table `v` whose entry at `(p, q)` is `max (a (p, q) + β q) 0` (the zero being the f32 zero word), where the
    one-row table `b` holds `β q` at `(0, q)`, is `biasRelu a b`. -/
theorem biasRelu_of {n d : Nat} (a : (⟨2, ![n, d]⟩ : Shape).Idx → EReal) (b : (⟨2, ![1, d]⟩ : Shape).Idx → EReal)
    (v : (⟨2, ![n, d]⟩ : Shape).Idx → EReal) (β : Fin d → EReal)
    (hb : ∀ q : Fin d, b (ix2 0 q) = β q)
    (hv : ∀ (p : Fin n) (q : Fin d), v (ix2 p q) = max (a (ix2 p q) + β q) (Ideal.ofBits .f32 0x00000000#32)) :
    v = Cert.Spec.biasRelu a b := by
  funext i
  obtain ⟨p, q, rfl⟩ : ∃ (p : Fin n) (q : Fin d), i = ix2 p q := ⟨i 0, i 1, eq_ix2 i⟩
  rw [hv p q]
  show _ = max (a (ix2 p q) + b (ix2 0 q)) _
  rw [hb q]

/-! ## The bias and cut-off of the two hidden layers, over a variable for the aggregated table -/

/-- Width 256: the bias vector, made a one-row table and repeated down the 50000 rows, added to `a`; then the
    maximum with the table of zero words. The bias read at `(p, q)` is `x2` at `q`, and so is the one-row view of
    `x2` at `(0, q)`. -/
theorem relu256 (a : (⟨S50000x256, .f32⟩ : BufTy).Contents (Elt Ideal)) (x2 : (⟨S256, .f32⟩ : BufTy).Contents (Elt Ideal)) :
    maximumf (F := Ideal) (s := S50000x256) (φ := .f32) (addf (F := Ideal) (s := S50000x256) (φ := .f32) a (val_main_v45 (F := Ideal) x2)) (val_main_call1_v0 (F := Ideal))
      = Cert.Spec.biasRelu a (Cert.KernelIdeal.Chain.rowOf256 (F := Ideal) x2) := by
  refine biasRelu_of a _ _ (fun q => x2 (ix1 q)) (fun q => shapeCast_a_1a_apply x2 _ 0 q) (fun p q => ?_)
  have e : idx_main_v44 (idx_main_v45 (ix2 p q)) = ix1 q :=
    funext fun c => Fin.ext (by match c with | ⟨0, _⟩ => rfl)
  show max (a (ix2 p q) + val_main_v45 (F := Ideal) x2 (ix2 p q)) (val_main_call1_v0 (F := Ideal) (ix2 p q)) = _
  rw [val_main_v45_apply, val_main_v44_apply, val_main_call1_v0_apply, val_main_call1_cst_apply, e]
  rfl

/-- Width 128: the same for the second layer's bias `x4`. -/
theorem relu128 (a : (⟨S50000x128, .f32⟩ : BufTy).Contents (Elt Ideal)) (x4 : (⟨S128, .f32⟩ : BufTy).Contents (Elt Ideal)) :
    maximumf (F := Ideal) (s := S50000x128) (φ := .f32) (addf (F := Ideal) (s := S50000x128) (φ := .f32) a (val_main_v63 (F := Ideal) x4)) (val_main_call2_v0 (F := Ideal))
      = Cert.Spec.biasRelu a (Cert.KernelIdeal.Chain.rowOf128 (F := Ideal) x4) := by
  refine biasRelu_of a _ _ (fun q => x4 (ix1 q)) (fun q => shapeCast_a_1a_apply x4 _ 0 q) (fun p q => ?_)
  have e : idx_main_v62 (idx_main_v63 (ix2 p q)) = ix1 q :=
    funext fun c => Fin.ext (by match c with | ⟨0, _⟩ => rfl)
  show max (a (ix2 p q) + val_main_v63 (F := Ideal) x4 (ix2 p q)) (val_main_call2_v0 (F := Ideal) (ix2 p q)) = _
  rw [val_main_v63_apply, val_main_v62_apply, val_main_call2_v0_apply, val_main_call2_cst_apply, e]
  rfl

/-! ## The five operations of the reference -/

/-- Layer 1's linear map. -/
theorem mm1 (x0 : (⟨S50000x128, .f32⟩ : BufTy).Contents (Elt Ideal)) (x1 : (⟨S128x256, .f32⟩ : BufTy).Contents (Elt Ideal)) :
    val_main_v30 (F := Ideal) x0 x1 = Cert.Spec.mm x0 x1 :=
  mm_of_sum x0 x1 _ lidx_main_v30 ridx_main_v30
    (fun i q => funext fun c => Fin.ext (by match c with | ⟨0, _⟩ => rfl | ⟨1, _⟩ => rfl))
    (fun i q => funext fun c => Fin.ext (by match c with | ⟨0, _⟩ => rfl | ⟨1, _⟩ => rfl))
    (val_main_v30_apply x0 x1)

/-- Layer 1's bias and cut-off. -/
theorem relu1 (x0 : (⟨S50000x128, .f32⟩ : BufTy).Contents (Elt Ideal)) (x1 : (⟨S128x256, .f32⟩ : BufTy).Contents (Elt Ideal)) (x2 : (⟨S256, .f32⟩ : BufTy).Contents (Elt Ideal)) (x7 : (⟨S2x600000, .i32⟩ : BufTy).Contents (Elt Ideal)) :
    val_main_v47 (F := Ideal) x0 x1 x2 x7
      = Cert.Spec.biasRelu (val_main_v43 (F := Ideal) x0 x1 x7) (Cert.KernelIdeal.Chain.rowOf256 (F := Ideal) x2) := by
  unfold val_main_v47 val_main_v46
  exact relu256 _ x2

/-- Layer 2's linear map. -/
theorem mm2 (x0 : (⟨S50000x128, .f32⟩ : BufTy).Contents (Elt Ideal)) (x1 : (⟨S128x256, .f32⟩ : BufTy).Contents (Elt Ideal)) (x2 : (⟨S256, .f32⟩ : BufTy).Contents (Elt Ideal)) (x3 : (⟨S256x128, .f32⟩ : BufTy).Contents (Elt Ideal)) (x7 : (⟨S2x600000, .i32⟩ : BufTy).Contents (Elt Ideal)) :
    val_main_v48 (F := Ideal) x0 x1 x2 x3 x7 = Cert.Spec.mm (val_main_v47 (F := Ideal) x0 x1 x2 x7) x3 :=
  mm_of_sum (val_main_v47 (F := Ideal) x0 x1 x2 x7) x3 _ lidx_main_v48 ridx_main_v48
    (fun i q => funext fun c => Fin.ext (by match c with | ⟨0, _⟩ => rfl | ⟨1, _⟩ => rfl))
    (fun i q => funext fun c => Fin.ext (by match c with | ⟨0, _⟩ => rfl | ⟨1, _⟩ => rfl))
    (val_main_v48_apply x0 x1 x2 x3 x7)

/-- Layer 2's bias and cut-off. -/
theorem relu2 (x0 : (⟨S50000x128, .f32⟩ : BufTy).Contents (Elt Ideal)) (x1 : (⟨S128x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x7 : (⟨S2x600000, .i32⟩ : BufTy).Contents (Elt Ideal)) :
    val_main_v65 (F := Ideal) x0 x1 x2 x3 x4 x7
      = Cert.Spec.biasRelu (val_main_v61 (F := Ideal) x0 x1 x2 x3 x7) (Cert.KernelIdeal.Chain.rowOf128 (F := Ideal) x4) := by
  unfold val_main_v65 val_main_v64
  exact relu128 _ x4

/-- Layer 3's linear map. -/
theorem mm3 (x0 : (⟨S50000x128, .f32⟩ : BufTy).Contents (Elt Ideal)) (x1 : (⟨S128x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x5 : (⟨S128x2, .f32⟩ : BufTy).Contents (Elt Ideal)) (x7 : (⟨S2x600000, .i32⟩ : BufTy).Contents (Elt Ideal)) :
    val_main_v66 (F := Ideal) x0 x1 x2 x3 x4 x5 x7 = Cert.Spec.mm (val_main_v65 (F := Ideal) x0 x1 x2 x3 x4 x7) x5 :=
  mm_of_sum (val_main_v65 (F := Ideal) x0 x1 x2 x3 x4 x7) x5 _ lidx_main_v66 ridx_main_v66
    (fun i q => funext fun c => Fin.ext (by match c with | ⟨0, _⟩ => rfl | ⟨1, _⟩ => rfl))
    (fun i q => funext fun c => Fin.ext (by match c with | ⟨0, _⟩ => rfl | ⟨1, _⟩ => rfl))
    (val_main_v66_apply x0 x1 x2 x3 x4 x5 x7)

end Cert.Bridge

end
-- ==== Proof.BridgeLsm.lean ====
/-
  The reference's closing step read as `Spec.biasLsm`: the bias vector is added to every row; the row maximum (taken
  from `-∞`, and once more against `-∞`, which changes nothing) is subtracted; the shifted row is exponentiated and
  summed (from zero); the logarithm of that sum is subtracted from the shifted row.
-/
import proofs.«170341_j10453950399195_1_alg».proof.Proof.ReadP
import proofs.«170341_j10453950399195_1_alg».proof.Proof.Final
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.ReferenceIdeal Cert.ReferenceIdeal.Gen Idealize.ShloMosaic Idealize.ShloMosaic.TcCoe Idealize.ShloMosaic.ValueIdx
open Cert.ReferenceIdeal.ReadP

section Chain

variable (x0 : (⟨S50000x128, .f32⟩ : BufTy).Contents (Elt Ideal)) (x1 : (⟨S128x256, .f32⟩ : BufTy).Contents (Elt Ideal))
  (x2 : (⟨S256, .f32⟩ : BufTy).Contents (Elt Ideal)) (x3 : (⟨S256x128, .f32⟩ : BufTy).Contents (Elt Ideal))
  (x4 : (⟨S128, .f32⟩ : BufTy).Contents (Elt Ideal)) (x5 : (⟨S128x2, .f32⟩ : BufTy).Contents (Elt Ideal))
  (x6 : (⟨S2, .f32⟩ : BufTy).Contents (Elt Ideal)) (x7 : (⟨S2x600000, .i32⟩ : BufTy).Contents (Elt Ideal))

-- `lg p` is the row of logits of node `p`: row `p` of the aggregated table plus the bias row.
local notation "lg" => Cert.Spec.logits (n := 50000) (d := 2) (val_main_v79 (F := Ideal) x0 x1 x2 x3 x4 x5 x7)
    (Cert.KernelIdeal.Chain.rowOf2 (F := Ideal) x6)

/-- The bias table at `(p, j)` is the bias vector at `j`, and so is the one-row table at `(0, j)`. -/
private theorem bias_apply (p : Fin 50000) (j : Fin 2) :
    val_main_v81 (F := Ideal) x6 (ix2 p j) = Cert.KernelIdeal.Chain.rowOf2 (F := Ideal) x6 (ix2 (0 : Fin 1) j) := by
  have e : idx_main_v80 (idx_main_v81 (ix2 p j)) = ix1 j :=
    funext fun a => Fin.ext (by match a with | ⟨0, _⟩ => rfl)
  rw [val_main_v81_apply, val_main_v80_apply, e]
  unfold Cert.KernelIdeal.Chain.rowOf2
  exact (shapeCast_a_1a_apply x6 _ 0 j).symm

/-- The table the log-softmax is taken of holds, at `(p, j)`, logit `j` of node `p`. -/
private theorem logits_apply (p : Fin 50000) (j : Fin 2) :
    val_main_v82 (F := Ideal) x0 x1 x2 x3 x4 x5 x6 x7 (ix2 p j) = lg p j := by
  rw [val_main_v82_apply, bias_apply]
  generalize val_main_v79 (F := Ideal) x0 x1 x2 x3 x4 x5 x7 = a
  generalize Cert.KernelIdeal.Chain.rowOf2 (F := Ideal) x6 = b
  rfl

/-- The reduced index `p` with column `k` put back is `(p, k)`. -/
private theorem lift_row (h : S50000x2.Reduces [1] S50000) (p : Fin 50000) (k : Fin (S50000x2.size 1)) :
    h.lift (ix1 p) k = ix2 p (⟨k.val, k.isLt⟩ : Fin 2) := by
  funext c; apply Fin.ext
  match c with
  | ⟨0, _⟩ => rfl
  | ⟨1, _⟩ => rfl

/-- The maximum-reduction over the columns, at node `p`, is the fold of `max` from the initial word over row `p`. -/
private theorem v0_apply (p : Fin 50000) :
    val_main_call3_v0 (F := Ideal) x0 x1 x2 x3 x4 x5 x6 x7 (ix1 p)
      = Cert.Spec.rowMax (fun j : Fin 2 => val_main_v82 (F := Ideal) x0 x1 x2 x3 x4 x5 x6 x7 (ix2 p j)) := by
  unfold val_main_call3_v0
  generalize val_main_v82 (F := Ideal) x0 x1 x2 x3 x4 x5 x6 x7 = y
  have hR : S50000x2.Reduces [1] S50000 := by decide
  rw [Host.reduce_eq_fold_single (FloatOps.maximumf (F := Ideal) (φ := .f32)) y _ reducesTo_S50000x2_S50000_d1 hR h_S_]
  have hf : (y ∘ hR.lift (ix1 p)) = fun j : Fin 2 => y (ix2 p j) :=
    funext fun k => congrArg y (lift_row hR p k)
  rw [hf]
  rfl

/-- The second maximum against the same initial word changes nothing: a fold of `max` is at least its initial value. -/
private theorem v2_apply (p : Fin 50000) :
    val_main_call3_v2 (F := Ideal) x0 x1 x2 x3 x4 x5 x6 x7 (ix1 p)
      = Cert.Spec.rowMax (lg p) := by
  rw [val_main_call3_v2_apply, val_main_call3_v1_apply, val_main_call3_cst_0_apply, v0_apply]
  simp only [logits_apply]
  show max (Ideal.ofBits .f32 0xFF800000#32) (Cert.Spec.rowMax (lg p))
    = Cert.Spec.rowMax (lg p)
  unfold Cert.Spec.rowMax
  exact max_eq_right ((Finset.le_fold_max _).2 (Or.inl le_rfl))

/-- The shifted table at `(p, j)`: logit `j` of node `p` minus the largest logit of that node. -/
private theorem v5_apply (p : Fin 50000) (j : Fin 2) :
    val_main_call3_v5 (F := Ideal) x0 x1 x2 x3 x4 x5 x6 x7 (ix2 p j)
      = lg p j - Cert.Spec.rowMax (lg p) := by
  have e : idx_main_call3_v3 (idx_main_call3_v4 (ix2 p j)) = ix1 p :=
    funext fun a => Fin.ext (by match a with | ⟨0, _⟩ => rfl)
  rw [val_main_call3_v5_apply, val_main_call3_v4_apply, val_main_call3_v3_apply, e, v2_apply, logits_apply]
  rfl

/-- The sum over the columns, from zero, of the exponentials of the shifted row. -/
private theorem v7_apply (p : Fin 50000) :
    val_main_call3_v7 (F := Ideal) x0 x1 x2 x3 x4 x5 x6 x7 (ix1 p)
      = ∑ j : Fin 2, Ideal.exp (lg p j - Cert.Spec.rowMax (lg p)) := by
  have e : ∀ k : Fin 2, idx_main_call3_v7 (ix1 p) k = ix2 p k := fun k =>
    funext fun a => Fin.ext (by match a with | ⟨0, _⟩ => rfl | ⟨1, _⟩ => rfl)
  rw [val_main_call3_v7_apply, val_main_call3_cst_1_apply]
  simp only [e, val_main_call3_v6_apply, v5_apply, Ideal.hostUnary_exp_def, Ideal.ofBits_def, Ideal.ofBits_zero_f32,
    zero_add]

end Chain

/-- Layer 3's bias and log-softmax. -/
theorem lsm (x0 : (⟨S50000x128, .f32⟩ : BufTy).Contents (Elt Ideal)) (x1 : (⟨S128x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x5 : (⟨S128x2, .f32⟩ : BufTy).Contents (Elt Ideal)) (x6 : (⟨S2, .f32⟩ : BufTy).Contents (Elt Ideal)) (x7 : (⟨S2x600000, .i32⟩ : BufTy).Contents (Elt Ideal)) :
    val_main_v83 (F := Ideal) x0 x1 x2 x3 x4 x5 x6 x7
      = Cert.Spec.biasLsm (val_main_v79 (F := Ideal) x0 x1 x2 x3 x4 x5 x7) (Cert.KernelIdeal.Chain.rowOf2 (F := Ideal) x6) := by
  funext i
  obtain ⟨p, q, rfl⟩ : ∃ (p : Fin 50000) (q : Fin 2), i = ix2 p q := ⟨i 0, i 1, eq_ix2 i⟩
  have e : idx_main_call3_v8 (idx_main_call3_v10 (ix2 p q)) = ix1 p :=
    funext fun a => Fin.ext (by match a with | ⟨0, _⟩ => rfl)
  rw [val_main_v83_apply, val_main_call3_v10_apply, val_main_call3_v9_apply, val_main_call3_v8_apply, e, v7_apply,
    v5_apply]
  generalize val_main_v79 (F := Ideal) x0 x1 x2 x3 x4 x5 x7 = a
  generalize Cert.KernelIdeal.Chain.rowOf2 (F := Ideal) x6 = b
  rfl

end Cert.Bridge

end
-- ==== Proof.BridgeHost.lean ====
/-
  The reference runs the same host arithmetic as the kernel program around its linear layers: the same graph
  arrays from the edge list, and per layer the same gather of rows at the sources, scaling by the edge weights and
  summation into the target rows. Operation for operation the two texts coincide, so each of the reference's stages
  IS the kernel program's named function of the same operands; nothing is computed to see it.
-/
import proofs.«170341_j10453950399195_1_alg».proof.Proof.ReadP
import proofs.«170341_j10453950399195_1_alg».proof.Proof.Final

set_option maxRecDepth 16384

noncomputable section

namespace Cert.Bridge

open Cert.ReferenceIdeal Cert.ReferenceIdeal.Gen Idealize.ShloMosaic Idealize.ShloMosaic.TcCoe
open Cert.ReferenceIdeal.ReadP

variable {F : FTy → Type} [FloatOps F]

/-- The sources. -/
theorem src_eq (x7 : (⟨S2x600000, .i32⟩ : BufTy).Contents (Elt F)) : val_main_v3 (F := F) x7 = Cert.KernelIdeal.Chain.src (F := F) x7 := rfl
/-- The targets. -/
theorem dst_eq (x7 : (⟨S2x600000, .i32⟩ : BufTy).Contents (Elt F)) : val_main_v6 (F := F) x7 = Cert.KernelIdeal.Chain.dst (F := F) x7 := rfl
/-- The degrees. -/
theorem deg_eq (x7 : (⟨S2x600000, .i32⟩ : BufTy).Contents (Elt F)) : val_main_v10 (F := F) x7 = Cert.KernelIdeal.Chain.deg (F := F) x7 := rfl
/-- Their inverse square roots. -/
theorem dinv_eq (x7 : (⟨S2x600000, .i32⟩ : BufTy).Contents (Elt F)) : val_main_v14 (F := F) x7 = Cert.KernelIdeal.Chain.dinv (F := F) x7 := rfl
/-- The edge weights. -/
theorem norm_eq (x7 : (⟨S2x600000, .i32⟩ : BufTy).Contents (Elt F)) : val_main_v29 (F := F) x7 = Cert.KernelIdeal.Chain.norm (F := F) x7 := rfl

/-- Layer 1's neighbourhood sums. -/
theorem agg1_eq (x0 : (⟨S50000x128, .f32⟩ : BufTy).Contents (Elt F)) (x1 : (⟨S128x256, .f32⟩ : BufTy).Contents (Elt F)) (x7 : (⟨S2x600000, .i32⟩ : BufTy).Contents (Elt F)) :
    val_main_v43 (F := F) x0 x1 x7
      = Cert.KernelIdeal.Chain.agg256 (F := F) (val_main_v30 (F := F) x0 x1) (val_main_v3 (F := F) x7) (val_main_v6 (F := F) x7) (val_main_v29 (F := F) x7) := rfl
/-- Layer 2's neighbourhood sums. -/
theorem agg2_eq (x0 : (⟨S50000x128, .f32⟩ : BufTy).Contents (Elt F)) (x1 : (⟨S128x256, .f32⟩ : BufTy).Contents (Elt F)) (x2 : (⟨S256, .f32⟩ : BufTy).Contents (Elt F)) (x3 : (⟨S256x128, .f32⟩ : BufTy).Contents (Elt F)) (x7 : (⟨S2x600000, .i32⟩ : BufTy).Contents (Elt F)) :
    val_main_v61 (F := F) x0 x1 x2 x3 x7
      = Cert.KernelIdeal.Chain.agg128 (F := F) (val_main_v48 (F := F) x0 x1 x2 x3 x7) (val_main_v3 (F := F) x7) (val_main_v6 (F := F) x7) (val_main_v29 (F := F) x7) := rfl
/-- Layer 3's neighbourhood sums. -/
theorem agg3_eq (x0 : (⟨S50000x128, .f32⟩ : BufTy).Contents (Elt F)) (x1 : (⟨S128x256, .f32⟩ : BufTy).Contents (Elt F)) (x2 : (⟨S256, .f32⟩ : BufTy).Contents (Elt F)) (x3 : (⟨S256x128, .f32⟩ : BufTy).Contents (Elt F)) (x4 : (⟨S128, .f32⟩ : BufTy).Contents (Elt F)) (x5 : (⟨S128x2, .f32⟩ : BufTy).Contents (Elt F)) (x7 : (⟨S2x600000, .i32⟩ : BufTy).Contents (Elt F)) :
    val_main_v79 (F := F) x0 x1 x2 x3 x4 x5 x7
      = Cert.KernelIdeal.Chain.agg2 (F := F) (val_main_v66 (F := F) x0 x1 x2 x3 x4 x5 x7) (val_main_v3 (F := F) x7) (val_main_v6 (F := F) x7) (val_main_v29 (F := F) x7) := rfl

end Cert.Bridge

end
-- ==== Proof.Bridge.lean ====
/-
  The reference's result is the same forward pass: its stages are rewritten, from the last to the first, into the
  row-wise functions of `Spec` (the three products, the two cut-offs, the log-softmax) and the shared host
  functions (the neighbourhood sums and the graph arrays), which is `Chain.forward` term for term.
-/
import proofs.«170341_j10453950399195_1_alg».proof.Proof.BridgeOps
import proofs.«170341_j10453950399195_1_alg».proof.Proof.BridgeLsm
import proofs.«170341_j10453950399195_1_alg».proof.Proof.BridgeHost

set_option maxRecDepth 16384

noncomputable section

namespace Cert.Bridge

open Cert.ReferenceIdeal Cert.ReferenceIdeal.Gen Idealize.ShloMosaic Idealize.ShloMosaic.TcCoe
open Cert.ReferenceIdeal.ReadP

/-- The reference's last stage, as a function of its eight arguments, is the forward pass. -/
theorem forward_eq (x0 : (⟨S50000x128, .f32⟩ : BufTy).Contents (Elt Ideal)) (x1 : (⟨S128x256, .f32⟩ : BufTy).Contents (Elt Ideal)) (x2 : (⟨S256, .f32⟩ : BufTy).Contents (Elt Ideal)) (x3 : (⟨S256x128, .f32⟩ : BufTy).Contents (Elt Ideal)) (x4 : (⟨S128, .f32⟩ : BufTy).Contents (Elt Ideal)) (x5 : (⟨S128x2, .f32⟩ : BufTy).Contents (Elt Ideal)) (x6 : (⟨S2, .f32⟩ : BufTy).Contents (Elt Ideal)) (x7 : (⟨S2x600000, .i32⟩ : BufTy).Contents (Elt Ideal)) :
    val_main_v83 (F := Ideal) x0 x1 x2 x3 x4 x5 x6 x7 = Cert.KernelIdeal.Chain.forward x0 x1 x2 x3 x4 x5 x6 x7 := by
  rw [lsm, agg3_eq, mm3, relu2, agg2_eq, mm2, relu1, agg1_eq, mm1, src_eq, dst_eq, norm_eq]
  rfl

end Cert.Bridge

end
-- ==== Proof.lean ====
/-
  The certificate of a three-layer graph convolution. Each layer multiplies the node table by a weight matrix,
  sums the products' rows over every node's neighbourhood with symmetric degree weights, adds a bias and applies a
  row-wise function: a cut-off at zero in the first two layers, a log-softmax in the last. The kernel program does
  the three products and the three bias steps in row tiles of 2000 nodes and the neighbourhood sums on the host;
  the reference does everything on the host.

  Over the extended reals both are one function of the eight arguments, `Chain.forward`. A row tile of a product
  is the product of the tile's rows with the whole matrix, and the bias steps act on each row by itself, so the 25
  tiles of each call assemble to the whole-table functions of `Spec`; rounding the operands of a product to a
  shorter format is the identity there. The host arithmetic between the calls is the reference's own, operation for
  operation. The reference's one extra maximum against `-∞` changes nothing. No finiteness of the inputs is used.

  The three frames: the kernel program's two are the launch theorem's run with the result dropped; the reference's is
  its run with the result dropped. No rewrite was made when the idealized kernel was printed, so `preserves` is trivial.
-/
import proofs.«170341_j10453950399195_1_alg».proof.Defs
import proofs.«170341_j10453950399195_1_alg».proof.Proof.Gen.Kernel
import proofs.«170341_j10453950399195_1_alg».proof.Proof.Gen.Kernel.Skeleton
import proofs.«170341_j10453950399195_1_alg».proof.Proof.Gen.Kernel.Launch
import proofs.«170341_j10453950399195_1_alg».proof.Proof.Gen.Kernel.Points
import proofs.«170341_j10453950399195_1_alg».proof.Proof.Gen.Kernel.Frame
import proofs.«170341_j10453950399195_1_alg».proof.Proof.Gen.KernelIdeal
import proofs.«170341_j10453950399195_1_alg».proof.Proof.Gen.KernelIdeal.Skeleton
import proofs.«170341_j10453950399195_1_alg».proof.Proof.Gen.KernelIdeal.Launch
import proofs.«170341_j10453950399195_1_alg».proof.Proof.Gen.KernelIdeal.Points
import proofs.«170341_j10453950399195_1_alg».proof.Proof.Gen.KernelIdeal.Frame
import proofs.«170341_j10453950399195_1_alg».proof.Proof.Gen.ReferenceIdeal
import proofs.«170341_j10453950399195_1_alg».proof.Proof.Gen.Pre_finite_inputs
import proofs.«170341_j10453950399195_1_alg».proof.Proof.Forward
import proofs.«170341_j10453950399195_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end at the forward pass of arguments that agree. -/
theorem algebraic : Cert.algebraic_KernelIdeal_ReferenceIdeal := by
  intro m ρ m' ρ' _ hagree
  refine ⟨_, Cert.KernelIdeal.Whole.run_forward m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v83_eq, Cert.Bridge.forward_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
